-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v52)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v52) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v61) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S1600000 : Shape := ⟨1, ![1600000]⟩
abbrev S50000 : Shape := ⟨1, ![50000]⟩
abbrev S128x256 : Shape := ⟨2, ![128, 256]⟩
abbrev S256 : Shape := ⟨1, ![256]⟩
abbrev S256x1 : Shape := ⟨2, ![256, 1]⟩
abbrev S1 : Shape := ⟨1, ![1]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_
  bcast_S_S256x1 : S_.BroadcastsInDim S256x1 (![] : Fin 0 → Fin S256x1.rank)
  reducesTo_S256x1_S_d0_1 : S256x1.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg7 : FVec F S1 .f32) (main_v13 : IVec S_ 1) (main_v16 : IVec S256x1 1) : IVec S_ 1 :=
  let main_c_5 : IVec S_ 1 := constantI S_ 1 1#1
  let main_v17 : IVec S_ 1 := (fun x v => Host.reduce IntOp.andi x v reducesTo_S256x1_S_d0_1 h_S_) main_v16 main_c_5
  let main_v18 : IVec S_ 1 := andi main_v13 main_v17
  let main_v19 : FVec F S1 .f32 := Host.absf main_arg7
  let main_cst_6 : FVec F S_ .f32 := constant S_ .f32 0x7F800000#32
  let main_v20 : FVec F S1 .f32 := broadcastInDim S1 ![] bcast_S_S1 main_cst_6
  let main_v21 : IVec S1 1 := cmpf .olt main_v19 main_v20
  let main_c_7 : IVec S_ 1 := constantI S_ 1 1#1
  let main_v22 : IVec S_ 1 := (fun x v => Host.reduce IntOp.andi x v reducesTo_S1_S_d0 h_S_) main_v21 main_c_7
  let main_v23 : IVec S_ 1 := andi main_v18 main_v22
  main_v23

def fn {F : FTy → Type} [FloatOps F] (main_arg0 : FVec F S50000x128 .f32) (main_arg1 : IVec S1600000 32) (main_arg2 : IVec S1600000 32) (main_arg3 : IVec S50000 32) (main_arg4 : FVec F S128x256 .f32) (main_arg5 : FVec F S256 .f32) (main_arg6 : FVec F S256x1 .f32) (main_arg7 : FVec F S1 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x256 .f32 := Host.absf main_arg4
  let main_cst_0 : FVec F S_ .f32 := constant S_ .f32 0x7F800000#32
  let main_v5 : FVec F S128x256 .f32 := broadcastInDim S128x256 ![] bcast_S_S128x256 main_cst_0
  let main_v6 : IVec S128x256 1 := cmpf .olt main_v4 main_v5
  let main_c_1 : IVec S_ 1 := constantI S_ 1 1#1
  let main_v7 : IVec S_ 1 := (fun x v => Host.reduce IntOp.andi x v reducesTo_S128x256_S_d0_1 h_S_) main_v6 main_c_1
  let main_v8 : IVec S_ 1 := andi main_v3 main_v7
  let main_v9 : FVec F S256 .f32 := Host.absf main_arg5
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x1 .f32 := Host.absf main_arg6
  let main_cst_4 : FVec F S_ .f32 := constant S_ .f32 0x7F800000#32
  let main_v15 : FVec F S256x1 .f32 := broadcastInDim S256x1 ![] bcast_S_S256x1 main_cst_4
  let main_v16 : IVec S256x1 1 := cmpf .olt main_v14 main_v15
  fn_part1 (F := F) main_arg7 main_v13 main_v16
-- ==== Kernel.lean ====
abbrev S50000x128 : Shape := ⟨2, ![50000, 128]⟩
abbrev S1600000 : Shape := ⟨1, ![1600000]⟩
abbrev S50000 : Shape := ⟨1, ![50000]⟩
abbrev S128x256 : Shape := ⟨2, ![128, 256]⟩
abbrev S256 : Shape := ⟨1, ![256]⟩
abbrev S256x1 : Shape := ⟨2, ![256, 1]⟩
abbrev S1 : Shape := ⟨1, ![1]⟩
abbrev S_ : Shape := ⟨0, ![]⟩
abbrev S1600000x1 : Shape := ⟨2, ![1600000, 1]⟩
abbrev S50000x1 : Shape := ⟨2, ![50000, 1]⟩
abbrev S1600000x128 : Shape := ⟨2, ![1600000, 128]⟩
abbrev S1x256 : Shape := ⟨2, ![1, 256]⟩
abbrev S50000x256 : Shape := ⟨2, ![50000, 256]⟩
abbrev S2000x128 : Shape := ⟨2, ![2000, 128]⟩
abbrev S2000x1 : Shape := ⟨2, ![2000, 1]⟩
abbrev S2000x256 : Shape := ⟨2, ![2000, 256]⟩
abbrev S1x1 : Shape := ⟨2, ![1, 1]⟩
abbrev S64x1 : Shape := ⟨2, ![64, 1]⟩

abbrev nBuf : Space → Nat
  | .hbm => 84
  | .vmem => 15
  | .smem => 0
  | _ => 0

abbrev bufTy : (tb : Table) → Fin (tcTables nBuf tb) → BufTy
  | .hbm, ⟨0, _⟩ => ⟨S50000x128, .f32⟩
  | .hbm, ⟨1, _⟩ => ⟨S1600000, .i32⟩
  | .hbm, ⟨2, _⟩ => ⟨S1600000, .i32⟩
  | .hbm, ⟨3, _⟩ => ⟨S50000, .i32⟩
  | .hbm, ⟨4, _⟩ => ⟨S128x256, .f32⟩
  | .hbm, ⟨5, _⟩ => ⟨S256, .f32⟩
  | .hbm, ⟨6, _⟩ => ⟨S256x1, .f32⟩
  | .hbm, ⟨7, _⟩ => ⟨S1, .f32⟩
  | .hbm, ⟨8, _⟩ => ⟨S_, .f32⟩
  | .hbm, ⟨9, _⟩ => ⟨S1600000, .f32⟩
  | .hbm, ⟨10, _⟩ => ⟨S_, .f32⟩
  | .hbm, ⟨11, _⟩ => ⟨S50000, .f32⟩
  | .hbm, ⟨12, _⟩ => ⟨S1600000x1, .i32⟩
  | .hbm, ⟨13, _⟩ => ⟨S50000, .f32⟩
  | .hbm, ⟨14, _⟩ => ⟨S_, .f32⟩
  | .hbm, ⟨15, _⟩ => ⟨S50000, .f32⟩
  | .hbm, ⟨16, _⟩ => ⟨S1600000x1, .i32⟩
  | .hbm, ⟨17, _⟩ => ⟨S50000, .f32⟩
  | .hbm, ⟨18, _⟩ => ⟨S_, .f32⟩
  | .hbm, ⟨19, _⟩ => ⟨S_, .f32⟩
  | .hbm, ⟨20, _⟩ => ⟨S50000, .f32⟩
  | .hbm, ⟨21, _⟩ => ⟨S50000, .f32⟩
  | .hbm, ⟨22, _⟩ => ⟨S_, .f32⟩
  | .hbm, ⟨23, _⟩ => ⟨S50000, .f32⟩
  | .hbm, ⟨24, _⟩ => ⟨S50000, .f32⟩
  | .hbm, ⟨25, _⟩ => ⟨S_, .f32⟩
  | .hbm, ⟨26, _⟩ => ⟨S_, .f32⟩
  | .hbm, ⟨27, _⟩ => ⟨S50000, .f32⟩
  | .hbm, ⟨28, _⟩ => ⟨S50000, .f32⟩
  | .hbm, ⟨29, _⟩ => ⟨S_, .f32⟩
  | .hbm, ⟨30, _⟩ => ⟨S50000, .f32⟩
  | .hbm, ⟨31, _⟩ => ⟨S50000, .f32⟩
  | .hbm, ⟨32, _⟩ => ⟨S50000x1, .f32⟩
  | .hbm, ⟨33, _⟩ => ⟨S50000x1, .f32⟩
  | .hbm, ⟨34, _⟩ => ⟨S50000x128, .f32⟩
  | .hbm, ⟨35, _⟩ => ⟨S50000x128, .f32⟩
  | .hbm, ⟨36, _⟩ => ⟨S_, .i32⟩
  | .hbm, ⟨37, _⟩ => ⟨S1600000, .i32⟩
  | .hbm, ⟨38, _⟩ => ⟨S1600000, .i1⟩
  | .hbm, ⟨39, _⟩ => ⟨S_, .i32⟩
  | .hbm, ⟨40, _⟩ => ⟨S1600000, .i32⟩
  | .hbm, ⟨41, _⟩ => ⟨S1600000, .i32⟩
  | .hbm, ⟨42, _⟩ => ⟨S1600000, .i32⟩
  | .hbm, ⟨43, _⟩ => ⟨S1600000x1, .i32⟩
  | .hbm, ⟨44, _⟩ => ⟨S1600000x128, .f32⟩
  | .hbm, ⟨45, _⟩ => ⟨S_, .f32⟩
  | .hbm, ⟨46, _⟩ => ⟨S50000x128, .f32⟩
  | .hbm, ⟨47, _⟩ => ⟨S1600000x1, .i32⟩
  | .hbm, ⟨48, _⟩ => ⟨S50000x128, .f32⟩
  | .hbm, ⟨49, _⟩ => ⟨S1x256, .f32⟩
  | .hbm, ⟨50, _⟩ => ⟨S50000x256, .f32⟩
  | .hbm, ⟨51, _⟩ => ⟨S50000x1, .f32⟩
  | .hbm, ⟨52, _⟩ => ⟨S_, .i32⟩
  | .hbm, ⟨53, _⟩ => ⟨S1600000, .i32⟩
  | .hbm, ⟨54, _⟩ => ⟨S1600000, .i1⟩
  | .hbm, ⟨55, _⟩ => ⟨S_, .i32⟩
  | .hbm, ⟨56, _⟩ => ⟨S1600000, .i32⟩
  | .hbm, ⟨57, _⟩ => ⟨S1600000, .i32⟩
  | .hbm, ⟨58, _⟩ => ⟨S1600000, .i32⟩
  | .hbm, ⟨59, _⟩ => ⟨S1600000x1, .i32⟩
  | .hbm, ⟨60, _⟩ => ⟨S1600000x1, .f32⟩
  | .hbm, ⟨61, _⟩ => ⟨S_, .f32⟩
  | .hbm, ⟨62, _⟩ => ⟨S50000x1, .f32⟩
  | .hbm, ⟨63, _⟩ => ⟨S1600000x1, .i32⟩
  | .hbm, ⟨64, _⟩ => ⟨S50000x1, .f32⟩
  | .hbm, ⟨65, _⟩ => ⟨S50000x1, .f32⟩
  | .hbm, ⟨66, _⟩ => ⟨S1x1, .f32⟩
  | .hbm, ⟨67, _⟩ => ⟨S50000x1, .f32⟩
  | .hbm, ⟨68, _⟩ => ⟨S50000x1, .f32⟩
  | .hbm, ⟨69, _⟩ => ⟨S_, .f32⟩
  | .hbm, ⟨70, _⟩ => ⟨S64x1, .f32⟩
  | .hbm, ⟨71, _⟩ => ⟨S50000x1, .i32⟩
  | .hbm, ⟨72, _⟩ => ⟨S64x1, .f32⟩
  | .hbm, ⟨73, _⟩ => ⟨S_, .f32⟩
  | .hbm, ⟨74, _⟩ => ⟨S50000x1, .f32⟩
  | .hbm, ⟨75, _⟩ => ⟨S_, .f32⟩
  | .hbm, ⟨76, _⟩ => ⟨S64x1, .f32⟩
  | .hbm, ⟨77, _⟩ => ⟨S50000x1, .i32⟩
  | .hbm, ⟨78, _⟩ => ⟨S64x1, .f32⟩
  | .hbm, ⟨79, _⟩ => ⟨S_, .f32⟩
  | .hbm, ⟨80, _⟩ => ⟨S_, .f32⟩
  | .hbm, ⟨81, _⟩ => ⟨S64x1, .f32⟩
  | .hbm, ⟨82, _⟩ => ⟨S64x1, .f32⟩
  | .hbm, ⟨83, _⟩ => ⟨S64x1, .f32⟩
  | .local _ .vmem, ⟨0, _⟩ => ⟨S2000x128, .f32⟩
  | .local _ .vmem, ⟨1, _⟩ => ⟨S2000x128, .f32⟩
  | .local _ .vmem, ⟨2, _⟩ => ⟨S2000x1, .f32⟩
  | .local _ .vmem, ⟨3, _⟩ => ⟨S2000x1, .f32⟩
  | .local _ .vmem, ⟨4, _⟩ => ⟨S128x256, .f32⟩
  | .local _ .vmem, ⟨5, _⟩ => ⟨S1x256, .f32⟩
  | .local _ .vmem, ⟨6, _⟩ => ⟨S2000x256, .f32⟩
  | .local _ .vmem, ⟨7, _⟩ => ⟨S2000x256, .f32⟩
  | .local _ .vmem, ⟨8, _⟩ => ⟨S2000x256, .f32⟩
  | .local _ .vmem, ⟨9, _⟩ => ⟨S2000x256, .f32⟩
  | .local _ .vmem, ⟨10, _⟩ => ⟨S2000x1, .f32⟩
  | .local _ .vmem, ⟨11, _⟩ => ⟨S2000x1, .f32⟩
  | .local _ .vmem, ⟨12, _⟩ => ⟨S256x1, .f32⟩
  | .local _ .vmem, ⟨13, _⟩ => ⟨S2000x1, .f32⟩
  | .local _ .vmem, ⟨14, _⟩ => ⟨S2000x1, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_cst_0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst_1 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst_2 : Ref sig .tc := ⟨.hbm, 18, rfl⟩
abbrev main_call0_v0 : Ref sig .tc := ⟨.hbm, 19, rfl⟩
abbrev main_call0_v1 : Ref sig .tc := ⟨.hbm, 20, rfl⟩
abbrev main_v7 : Ref sig .tc := ⟨.hbm, 21, rfl⟩
abbrev main_cst_3 : Ref sig .tc := ⟨.hbm, 22, rfl⟩
abbrev main_v8 : Ref sig .tc := ⟨.hbm, 23, rfl⟩
abbrev main_v9 : Ref sig .tc := ⟨.hbm, 24, rfl⟩
abbrev main_cst_4 : Ref sig .tc := ⟨.hbm, 25, rfl⟩
abbrev main_call1_v0 : Ref sig .tc := ⟨.hbm, 26, rfl⟩
abbrev main_call1_v1 : Ref sig .tc := ⟨.hbm, 27, rfl⟩
abbrev main_v10 : Ref sig .tc := ⟨.hbm, 28, rfl⟩
abbrev main_cst_5 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_c : Ref sig .tc := ⟨.hbm, 36, rfl⟩
abbrev main_v17 : Ref sig .tc := ⟨.hbm, 37, rfl⟩
abbrev main_v18 : Ref sig .tc := ⟨.hbm, 38, rfl⟩
abbrev main_c_6 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_cst_7 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_c_8 : Ref sig .tc := ⟨.hbm, 52, rfl⟩
abbrev main_v30 : Ref sig .tc := ⟨.hbm, 53, rfl⟩
abbrev main_v31 : Ref sig .tc := ⟨.hbm, 54, rfl⟩
abbrev main_c_9 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_cst_10 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_cst_11 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_cst_12 : Ref sig .tc := ⟨.hbm, 73, rfl⟩
abbrev main_v47 : Ref sig .tc := ⟨.hbm, 74, rfl⟩
abbrev main_cst_13 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_cst_14 : Ref sig .tc := ⟨.hbm, 79, rfl⟩
abbrev main_call2_v0 : Ref sig .tc := ⟨.hbm, 80, rfl⟩
abbrev main_call2_v1 : Ref sig .tc := ⟨.hbm, 81, rfl⟩
abbrev main_v51 : Ref sig .tc := ⟨.hbm, 82, rfl⟩
abbrev main_v52 : Ref sig .tc := ⟨.hbm, 83, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg3_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem3_0 : DmaSem sig := 13
abbrev cc1_sem3_1 : DmaSem sig := 14

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S2000x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S256x1 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S2000x1 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  bcast_S_S1600000 : S_.BroadcastsInDim S1600000 (![] : Fin 0 → Fin S1600000.rank)
  bcast_S_S50000 : S_.BroadcastsInDim S50000 (![] : Fin 0 → Fin S50000.rank)
  bcast_S1600000_S1600000x1_0 : S1600000.BroadcastsInDim S1600000x1 (![0] : Fin 1 → Fin S1600000x1.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S_S50000x128 : S_.BroadcastsInDim S50000x128 (![] : Fin 0 → Fin S50000x128.rank)
  shapeCasts_S256_S1x256 : S256.ShapeCasts S1x256
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x128 : S2000x1.Broadcasts S2000x128
  bitsLt_bf16_f32 : FTy.bits .bf16 < FTy.bits .f32
  inb_S128x256_S128x256_0_0 : ∀ a, (![0, 0] : Fin 2 → Nat) a + S128x256.size a ≤ S128x256.size a
  h_S128x256 : 0 < S128x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2000x256 : S1x256.Broadcasts S2000x256
  inb_S2000x256_S2000x256_0_0 : ∀ a, (![0, 0] : Fin 2 → Nat) a + S2000x256.size a ≤ S2000x256.size a
  h_S2000x256 : 0 < S2000x256.numel
  shapeCasts_S2000x256_S2000x256 : S2000x256.ShapeCasts S2000x256
  broadcasts_S2000x1_S2000x256 : S2000x1.Broadcasts S2000x256
  inb_S256x1_S256x1_0_0 : ∀ a, (![0, 0] : Fin 2 → Nat) a + S256x1.size a ≤ S256x1.size a
  h_S256x1 : 0 < S256x1.numel
  bcast_S_S50000x1 : S_.BroadcastsInDim S50000x1 (![] : Fin 0 → Fin S50000x1.rank)
  bcast_S1_S1x1_1 : S1.BroadcastsInDim S1x1 (![1] : Fin 1 → Fin S1x1.rank)
  bcast_S1x1_S50000x1_0_1 : S1x1.BroadcastsInDim S50000x1 (![0, 1] : Fin 2 → Fin S50000x1.rank)
  bcast_S_S64x1 : S_.BroadcastsInDim S64x1 (![] : Fin 0 → Fin S64x1.rank)
  scatter_S50000_S1600000x1_S1600000_n_0_0_1_wf : ScatterDims.WF S50000 S1600000x1 S1600000 [] [0] [0] 1
  gather_S50000x128_S1600000x1_S1600000x128_1_0_n_n_0_1_1128_wf : GatherDims.WF S50000x128 S1600000x1 S1600000x128 [1] [0] [] [0] [] 1 ![1, 128]
  scatter_S50000x128_S1600000x1_S1600000x128_1_0_0_1_wf : ScatterDims.WF S50000x128 S1600000x1 S1600000x128 [1] [0] [0] 1
  dot_S2000x128_S128x256_S2000x256_1_0_0_1_n_n_wf : DotDims.WF S2000x128 S128x256 S2000x256 [1] [0] [0] [1] [] []
  dot_S2000x256_S256x1_S2000x1_1_0_0_1_n_n_wf : DotDims.WF S2000x256 S256x1 S2000x1 [1] [0] [0] [1] [] []
  gather_S50000x1_S1600000x1_S1600000x1_1_0_n_n_0_1_11_wf : GatherDims.WF S50000x1 S1600000x1 S1600000x1 [1] [0] [] [0] [] 1 ![1, 1]
  scatter_S50000x1_S1600000x1_S1600000x1_1_0_0_1_wf : ScatterDims.WF S50000x1 S1600000x1 S1600000x1 [1] [0] [0] 1
  scatter_S64x1_S50000x1_S50000x1_1_0_0_1_wf : ScatterDims.WF S64x1 S50000x1 S50000x1 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x1.size a ≤ S50000x1.size a
  hwx0_1 : ∀ i : grid0.Coords, EltTy.bits .f32 = 32 ∨ (Rect.block (s := S50000x1) S2000x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x256.size a ≤ S128x256.size a
  hwx0_2 : ∀ i : grid0.Coords, EltTy.bits .f32 = 32 ∨ (Rect.block (s := S128x256) S128x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x256.size a ≤ S1x256.size a
  hwx0_3 : ∀ i : grid0.Coords, EltTy.bits .f32 = 32 ∨ (Rect.block (s := S1x256) S1x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2000x256.size a ≤ S50000x256.size a
  hwx0_4 : ∀ i : grid0.Coords, EltTy.bits .f32 = 32 ∨ (Rect.block (s := S50000x256) S2000x256.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x256.size a ≤ S50000x256.size a
  hwx1_0 : ∀ i : grid1.Coords, EltTy.bits .f32 = 32 ∨ (Rect.block (s := S50000x256) S2000x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x1.size a ≤ S50000x1.size a
  hwx1_1 : ∀ i : grid1.Coords, EltTy.bits .f32 = 32 ∨ (Rect.block (s := S50000x1) S2000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S256x1.size a ≤ S256x1.size a
  hwx1_2 : ∀ i : grid1.Coords, EltTy.bits .f32 = 32 ∨ (Rect.block (s := S256x1) S256x1.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2000x1.size a ≤ S50000x1.size a
  hwx1_3 : ∀ i : grid1.Coords, EltTy.bits .f32 = 32 ∨ (Rect.block (s := S50000x1) S2000x1.size (cc1_transform_3 i) (hinb1_3 i)).WholeWords (EltTy.packing .f32)

variable [Facts₀]

def scatter_S50000_S1600000x1_S1600000_n_0_0_1 : ScatterDims S50000 S1600000x1 S1600000 where
  updateWindowDims := []
  insertedWindowDims := [0]
  scatterDimsToOperandDims := [0]
  indexVectorDim := 1
  wf := scatter_S50000_S1600000x1_S1600000_n_0_0_1_wf
def gather_S50000x128_S1600000x1_S1600000x128_1_0_n_n_0_1_1128 : GatherDims S50000x128 S1600000x1 S1600000x128 where
  offsetDims := [1]
  collapsedSliceDims := [0]
  operandBatchingDims := []
  startIndicesBatchingDims := []
  startIndexMap := [0]
  indexVectorDim := 1
  sliceSizes := ![1, 128]
  wf := gather_S50000x128_S1600000x1_S1600000x128_1_0_n_n_0_1_1128_wf
def scatter_S50000x128_S1600000x1_S1600000x128_1_0_0_1 : ScatterDims S50000x128 S1600000x1 S1600000x128 where
  updateWindowDims := [1]
  insertedWindowDims := [0]
  scatterDimsToOperandDims := [0]
  indexVectorDim := 1
  wf := scatter_S50000x128_S1600000x1_S1600000x128_1_0_0_1_wf
def dot_S2000x128_S128x256_S2000x256_1_0_0_1_n_n : DotDims S2000x128 S128x256 S2000x256 where
  lhsContracting := [1]
  rhsContracting := [0]
  lhsNonContracting := [0]
  rhsNonContracting := [1]
  lhsBatch := []
  rhsBatch := []
  wf := dot_S2000x128_S128x256_S2000x256_1_0_0_1_n_n_wf
def dot_S2000x256_S256x1_S2000x1_1_0_0_1_n_n : DotDims S2000x256 S256x1 S2000x1 where
  lhsContracting := [1]
  rhsContracting := [0]
  lhsNonContracting := [0]
  rhsNonContracting := [1]
  lhsBatch := []
  rhsBatch := []
  wf := dot_S2000x256_S256x1_S2000x1_1_0_0_1_n_n_wf
def gather_S50000x1_S1600000x1_S1600000x1_1_0_n_n_0_1_11 : GatherDims S50000x1 S1600000x1 S1600000x1 where
  offsetDims := [1]
  collapsedSliceDims := [0]
  operandBatchingDims := []
  startIndicesBatchingDims := []
  startIndexMap := [0]
  indexVectorDim := 1
  sliceSizes := ![1, 1]
  wf := gather_S50000x1_S1600000x1_S1600000x1_1_0_n_n_0_1_11_wf
def scatter_S50000x1_S1600000x1_S1600000x1_1_0_0_1 : ScatterDims S50000x1 S1600000x1 S1600000x1 where
  updateWindowDims := [1]
  insertedWindowDims := [0]
  scatterDimsToOperandDims := [0]
  indexVectorDim := 1
  wf := scatter_S50000x1_S1600000x1_S1600000x1_1_0_0_1_wf
def scatter_S64x1_S50000x1_S50000x1_1_0_0_1 : ScatterDims S64x1 S50000x1 S50000x1 where
  updateWindowDims := [1]
  insertedWindowDims := [0]
  scatterDimsToOperandDims := [0]
  indexVectorDim := 1
  wf := scatter_S64x1_S50000x1_S50000x1_1_0_0_1_wf

abbrev win0_0 : Pipeline.Window sig grid0 :=
  Pipeline.Window.ofSpec (Memref.whole main_v26) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v14) S2000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S128x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v27) S1x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v28) S2000x256.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v28) S2000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v13) S2000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg6) S256x1.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v29) S2000x1.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S50000x128 : Shape := ⟨2, ![50000, 128]⟩
abbrev S1600000 : Shape := ⟨1, ![1600000]⟩
abbrev S50000 : Shape := ⟨1, ![50000]⟩
abbrev S128x256 : Shape := ⟨2, ![128, 256]⟩
abbrev S256 : Shape := ⟨1, ![256]⟩
abbrev S256x1 : Shape := ⟨2, ![256, 1]⟩
abbrev S1 : Shape := ⟨1, ![1]⟩
abbrev S_ : Shape := ⟨0, ![]⟩
abbrev S1600000x1 : Shape := ⟨2, ![1600000, 1]⟩
abbrev S50000x1 : Shape := ⟨2, ![50000, 1]⟩
abbrev S1600000x128 : Shape := ⟨2, ![1600000, 128]⟩
abbrev S50000x256 : Shape := ⟨2, ![50000, 256]⟩
abbrev S1x256 : Shape := ⟨2, ![1, 256]⟩
abbrev S1x1 : Shape := ⟨2, ![1, 1]⟩
abbrev S64x1 : Shape := ⟨2, ![64, 1]⟩

abbrev nBuf : Space → Nat
  | .hbm => 95
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S1600000, .i32⟩
  | .hbm, ⟨2, _⟩ => ⟨S1600000, .i32⟩
  | .hbm, ⟨3, _⟩ => ⟨S50000, .i32⟩
  | .hbm, ⟨4, _⟩ => ⟨S128x256, .f32⟩
  | .hbm, ⟨5, _⟩ => ⟨S256, .f32⟩
  | .hbm, ⟨6, _⟩ => ⟨S256x1, .f32⟩
  | .hbm, ⟨7, _⟩ => ⟨S1, .f32⟩
  | .hbm, ⟨8, _⟩ => ⟨S_, .f32⟩
  | .hbm, ⟨9, _⟩ => ⟨S1600000, .f32⟩
  | .hbm, ⟨10, _⟩ => ⟨S_, .f32⟩
  | .hbm, ⟨11, _⟩ => ⟨S50000, .f32⟩
  | .hbm, ⟨12, _⟩ => ⟨S1600000x1, .i32⟩
  | .hbm, ⟨13, _⟩ => ⟨S50000, .f32⟩
  | .hbm, ⟨14, _⟩ => ⟨S_, .f32⟩
  | .hbm, ⟨15, _⟩ => ⟨S50000, .f32⟩
  | .hbm, ⟨16, _⟩ => ⟨S1600000x1, .i32⟩
  | .hbm, ⟨17, _⟩ => ⟨S50000, .f32⟩
  | .hbm, ⟨18, _⟩ => ⟨S_, .f32⟩
  | .hbm, ⟨19, _⟩ => ⟨S_, .f32⟩
  | .hbm, ⟨20, _⟩ => ⟨S50000, .f32⟩
  | .hbm, ⟨21, _⟩ => ⟨S50000, .f32⟩
  | .hbm, ⟨22, _⟩ => ⟨S_, .f32⟩
  | .hbm, ⟨23, _⟩ => ⟨S50000, .f32⟩
  | .hbm, ⟨24, _⟩ => ⟨S50000, .f32⟩
  | .hbm, ⟨25, _⟩ => ⟨S_, .f32⟩
  | .hbm, ⟨26, _⟩ => ⟨S_, .f32⟩
  | .hbm, ⟨27, _⟩ => ⟨S50000, .f32⟩
  | .hbm, ⟨28, _⟩ => ⟨S50000, .f32⟩
  | .hbm, ⟨29, _⟩ => ⟨S_, .f32⟩
  | .hbm, ⟨30, _⟩ => ⟨S50000, .f32⟩
  | .hbm, ⟨31, _⟩ => ⟨S50000, .f32⟩
  | .hbm, ⟨32, _⟩ => ⟨S50000x1, .f32⟩
  | .hbm, ⟨33, _⟩ => ⟨S50000x128, .f32⟩
  | .hbm, ⟨34, _⟩ => ⟨S50000x128, .f32⟩
  | .hbm, ⟨35, _⟩ => ⟨S_, .i32⟩
  | .hbm, ⟨36, _⟩ => ⟨S1600000, .i32⟩
  | .hbm, ⟨37, _⟩ => ⟨S1600000, .i1⟩
  | .hbm, ⟨38, _⟩ => ⟨S_, .i32⟩
  | .hbm, ⟨39, _⟩ => ⟨S1600000, .i32⟩
  | .hbm, ⟨40, _⟩ => ⟨S1600000, .i32⟩
  | .hbm, ⟨41, _⟩ => ⟨S1600000, .i32⟩
  | .hbm, ⟨42, _⟩ => ⟨S1600000x1, .i32⟩
  | .hbm, ⟨43, _⟩ => ⟨S1600000x128, .f32⟩
  | .hbm, ⟨44, _⟩ => ⟨S_, .f32⟩
  | .hbm, ⟨45, _⟩ => ⟨S50000x128, .f32⟩
  | .hbm, ⟨46, _⟩ => ⟨S1600000x1, .i32⟩
  | .hbm, ⟨47, _⟩ => ⟨S50000x128, .f32⟩
  | .hbm, ⟨48, _⟩ => ⟨S50000x1, .f32⟩
  | .hbm, ⟨49, _⟩ => ⟨S50000x128, .f32⟩
  | .hbm, ⟨50, _⟩ => ⟨S50000x128, .f32⟩
  | .hbm, ⟨51, _⟩ => ⟨S50000x256, .f32⟩
  | .hbm, ⟨52, _⟩ => ⟨S1x256, .f32⟩
  | .hbm, ⟨53, _⟩ => ⟨S50000x256, .f32⟩
  | .hbm, ⟨54, _⟩ => ⟨S50000x256, .f32⟩
  | .hbm, ⟨55, _⟩ => ⟨S_, .f32⟩
  | .hbm, ⟨56, _⟩ => ⟨S50000x256, .f32⟩
  | .hbm, ⟨57, _⟩ => ⟨S50000x256, .f32⟩
  | .hbm, ⟨58, _⟩ => ⟨S50000x1, .f32⟩
  | .hbm, ⟨59, _⟩ => ⟨S50000x256, .f32⟩
  | .hbm, ⟨60, _⟩ => ⟨S50000x256, .f32⟩
  | .hbm, ⟨61, _⟩ => ⟨S50000x1, .f32⟩
  | .hbm, ⟨62, _⟩ => ⟨S_, .i32⟩
  | .hbm, ⟨63, _⟩ => ⟨S1600000, .i32⟩
  | .hbm, ⟨64, _⟩ => ⟨S1600000, .i1⟩
  | .hbm, ⟨65, _⟩ => ⟨S_, .i32⟩
  | .hbm, ⟨66, _⟩ => ⟨S1600000, .i32⟩
  | .hbm, ⟨67, _⟩ => ⟨S1600000, .i32⟩
  | .hbm, ⟨68, _⟩ => ⟨S1600000, .i32⟩
  | .hbm, ⟨69, _⟩ => ⟨S1600000x1, .i32⟩
  | .hbm, ⟨70, _⟩ => ⟨S1600000x1, .f32⟩
  | .hbm, ⟨71, _⟩ => ⟨S_, .f32⟩
  | .hbm, ⟨72, _⟩ => ⟨S50000x1, .f32⟩
  | .hbm, ⟨73, _⟩ => ⟨S1600000x1, .i32⟩
  | .hbm, ⟨74, _⟩ => ⟨S50000x1, .f32⟩
  | .hbm, ⟨75, _⟩ => ⟨S50000x1, .f32⟩
  | .hbm, ⟨76, _⟩ => ⟨S50000x1, .f32⟩
  | .hbm, ⟨77, _⟩ => ⟨S1x1, .f32⟩
  | .hbm, ⟨78, _⟩ => ⟨S50000x1, .f32⟩
  | .hbm, ⟨79, _⟩ => ⟨S50000x1, .f32⟩
  | .hbm, ⟨80, _⟩ => ⟨S_, .f32⟩
  | .hbm, ⟨81, _⟩ => ⟨S64x1, .f32⟩
  | .hbm, ⟨82, _⟩ => ⟨S50000x1, .i32⟩
  | .hbm, ⟨83, _⟩ => ⟨S64x1, .f32⟩
  | .hbm, ⟨84, _⟩ => ⟨S_, .f32⟩
  | .hbm, ⟨85, _⟩ => ⟨S50000x1, .f32⟩
  | .hbm, ⟨86, _⟩ => ⟨S_, .f32⟩
  | .hbm, ⟨87, _⟩ => ⟨S64x1, .f32⟩
  | .hbm, ⟨88, _⟩ => ⟨S50000x1, .i32⟩
  | .hbm, ⟨89, _⟩ => ⟨S64x1, .f32⟩
  | .hbm, ⟨90, _⟩ => ⟨S_, .f32⟩
  | .hbm, ⟨91, _⟩ => ⟨S_, .f32⟩
  | .hbm, ⟨92, _⟩ => ⟨S64x1, .f32⟩
  | .hbm, ⟨93, _⟩ => ⟨S64x1, .f32⟩
  | .hbm, ⟨94, _⟩ => ⟨S64x1, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_cst_0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst_1 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst_2 : Ref sig .tc := ⟨.hbm, 18, rfl⟩
abbrev main_call0_v0 : Ref sig .tc := ⟨.hbm, 19, rfl⟩
abbrev main_call0_v1 : Ref sig .tc := ⟨.hbm, 20, rfl⟩
abbrev main_v7 : Ref sig .tc := ⟨.hbm, 21, rfl⟩
abbrev main_cst_3 : Ref sig .tc := ⟨.hbm, 22, rfl⟩
abbrev main_v8 : Ref sig .tc := ⟨.hbm, 23, rfl⟩
abbrev main_v9 : Ref sig .tc := ⟨.hbm, 24, rfl⟩
abbrev main_cst_4 : Ref sig .tc := ⟨.hbm, 25, rfl⟩
abbrev main_call1_v0 : Ref sig .tc := ⟨.hbm, 26, rfl⟩
abbrev main_call1_v1 : Ref sig .tc := ⟨.hbm, 27, rfl⟩
abbrev main_v10 : Ref sig .tc := ⟨.hbm, 28, rfl⟩
abbrev main_cst_5 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_c : Ref sig .tc := ⟨.hbm, 35, rfl⟩
abbrev main_v16 : Ref sig .tc := ⟨.hbm, 36, rfl⟩
abbrev main_v17 : Ref sig .tc := ⟨.hbm, 37, rfl⟩
abbrev main_c_6 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_cst_7 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_call2_cst : Ref sig .tc := ⟨.hbm, 55, rfl⟩
abbrev main_call2_v0 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_c_8 : Ref sig .tc := ⟨.hbm, 62, rfl⟩
abbrev main_v38 : Ref sig .tc := ⟨.hbm, 63, rfl⟩
abbrev main_v39 : Ref sig .tc := ⟨.hbm, 64, rfl⟩
abbrev main_c_9 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_cst_10 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_cst_11 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_cst_12 : Ref sig .tc := ⟨.hbm, 84, rfl⟩
abbrev main_v56 : Ref sig .tc := ⟨.hbm, 85, rfl⟩
abbrev main_cst_13 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_cst_14 : Ref sig .tc := ⟨.hbm, 90, rfl⟩
abbrev main_call3_v0 : Ref sig .tc := ⟨.hbm, 91, rfl⟩
abbrev main_call3_v1 : Ref sig .tc := ⟨.hbm, 92, rfl⟩
abbrev main_v60 : Ref sig .tc := ⟨.hbm, 93, rfl⟩
abbrev main_v61 : Ref sig .tc := ⟨.hbm, 94, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S_S50000 : S_.BroadcastsInDim S50000 (![] : Fin 0 → Fin S50000.rank)
  bcast_S1600000_S1600000x1_0 : S1600000.BroadcastsInDim S1600000x1 (![0] : Fin 1 → Fin S1600000x1.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S_S50000x128 : S_.BroadcastsInDim S50000x128 (![] : Fin 0 → Fin S50000x128.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S_S50000x256 : S_.BroadcastsInDim S50000x256 (![] : Fin 0 → Fin S50000x256.rank)
  bcast_S50000x1_S50000x256_0_1 : S50000x1.BroadcastsInDim S50000x256 (![0, 1] : Fin 2 → Fin S50000x256.rank)
  bcast_S_S50000x1 : S_.BroadcastsInDim S50000x1 (![] : Fin 0 → Fin S50000x1.rank)
  bcast_S1_S1x1_1 : S1.BroadcastsInDim S1x1 (![1] : Fin 1 → Fin S1x1.rank)
  bcast_S1x1_S50000x1_0_1 : S1x1.BroadcastsInDim S50000x1 (![0, 1] : Fin 2 → Fin S50000x1.rank)
  bcast_S_S64x1 : S_.BroadcastsInDim S64x1 (![] : Fin 0 → Fin S64x1.rank)
  scatter_S50000_S1600000x1_S1600000_n_0_0_1_wf : ScatterDims.WF S50000 S1600000x1 S1600000 [] [0] [0] 1
  gather_S50000x128_S1600000x1_S1600000x128_1_0_n_n_0_1_1128_wf : GatherDims.WF S50000x128 S1600000x1 S1600000x128 [1] [0] [] [0] [] 1 ![1, 128]
  scatter_S50000x128_S1600000x1_S1600000x128_1_0_0_1_wf : ScatterDims.WF S50000x128 S1600000x1 S1600000x128 [1] [0] [0] 1
  dot_S50000x128_S128x256_S50000x256_1_0_0_1_n_n_wf : DotDims.WF S50000x128 S128x256 S50000x256 [1] [0] [0] [1] [] []
  dot_S50000x256_S256x1_S50000x1_1_0_0_1_n_n_wf : DotDims.WF S50000x256 S256x1 S50000x1 [1] [0] [0] [1] [] []
  gather_S50000x1_S1600000x1_S1600000x1_1_0_n_n_0_1_11_wf : GatherDims.WF S50000x1 S1600000x1 S1600000x1 [1] [0] [] [0] [] 1 ![1, 1]
  scatter_S50000x1_S1600000x1_S1600000x1_1_0_0_1_wf : ScatterDims.WF S50000x1 S1600000x1 S1600000x1 [1] [0] [0] 1
  scatter_S64x1_S50000x1_S50000x1_1_0_0_1_wf : ScatterDims.WF S64x1 S50000x1 S50000x1 [1] [0] [0] 1

variable [Facts₀]

def scatter_S50000_S1600000x1_S1600000_n_0_0_1 : ScatterDims S50000 S1600000x1 S1600000 where
  updateWindowDims := []
  insertedWindowDims := [0]
  scatterDimsToOperandDims := [0]
  indexVectorDim := 1
  wf := scatter_S50000_S1600000x1_S1600000_n_0_0_1_wf
def gather_S50000x128_S1600000x1_S1600000x128_1_0_n_n_0_1_1128 : GatherDims S50000x128 S1600000x1 S1600000x128 where
  offsetDims := [1]
  collapsedSliceDims := [0]
  operandBatchingDims := []
  startIndicesBatchingDims := []
  startIndexMap := [0]
  indexVectorDim := 1
  sliceSizes := ![1, 128]
  wf := gather_S50000x128_S1600000x1_S1600000x128_1_0_n_n_0_1_1128_wf
def scatter_S50000x128_S1600000x1_S1600000x128_1_0_0_1 : ScatterDims S50000x128 S1600000x1 S1600000x128 where
  updateWindowDims := [1]
  insertedWindowDims := [0]
  scatterDimsToOperandDims := [0]
  indexVectorDim := 1
  wf := scatter_S50000x128_S1600000x1_S1600000x128_1_0_0_1_wf
def dot_S50000x128_S128x256_S50000x256_1_0_0_1_n_n : DotDims S50000x128 S128x256 S50000x256 where
  lhsContracting := [1]
  rhsContracting := [0]
  lhsNonContracting := [0]
  rhsNonContracting := [1]
  lhsBatch := []
  rhsBatch := []
  wf := dot_S50000x128_S128x256_S50000x256_1_0_0_1_n_n_wf
def dot_S50000x256_S256x1_S50000x1_1_0_0_1_n_n : DotDims S50000x256 S256x1 S50000x1 where
  lhsContracting := [1]
  rhsContracting := [0]
  lhsNonContracting := [0]
  rhsNonContracting := [1]
  lhsBatch := []
  rhsBatch := []
  wf := dot_S50000x256_S256x1_S50000x1_1_0_0_1_n_n_wf
def gather_S50000x1_S1600000x1_S1600000x1_1_0_n_n_0_1_11 : GatherDims S50000x1 S1600000x1 S1600000x1 where
  offsetDims := [1]
  collapsedSliceDims := [0]
  operandBatchingDims := []
  startIndicesBatchingDims := []
  startIndexMap := [0]
  indexVectorDim := 1
  sliceSizes := ![1, 1]
  wf := gather_S50000x1_S1600000x1_S1600000x1_1_0_n_n_0_1_11_wf
def scatter_S50000x1_S1600000x1_S1600000x1_1_0_0_1 : ScatterDims S50000x1 S1600000x1 S1600000x1 where
  updateWindowDims := [1]
  insertedWindowDims := [0]
  scatterDimsToOperandDims := [0]
  indexVectorDim := 1
  wf := scatter_S50000x1_S1600000x1_S1600000x1_1_0_0_1_wf
def scatter_S64x1_S50000x1_S50000x1_1_0_0_1 : ScatterDims S64x1 S50000x1 S50000x1 where
  updateWindowDims := [1]
  insertedWindowDims := [0]
  scatterDimsToOperandDims := [0]
  indexVectorDim := 1
  wf := scatter_S64x1_S50000x1_S50000x1_1_0_0_1_wf

class Facts : Prop extends Facts₀ where

variable [Facts]
-- ==== Proof.Spec.lean ====
/-
  The two dense layers of the two-layer graph convolution, each as ONE function of whole arrays, index by index over
  the extended reals.

  * `hidden agg nd w b` — the first layer after aggregation: row `r` of the aggregated features is scaled by the
    destination normalisation `nd r`, multiplied into the weight matrix `w` (a sum over the 128 input features), the bias
    row `b` is added and the result is clamped below at zero (ReLU).
  * `readout h ns w` — the second layer before aggregation: row `r` of the hidden features is scaled by the source
    normalisation `ns r` and multiplied into the weight column `w` (a sum over the 256 hidden features).

  Neither definition distributes a product over a sum or cancels anything: each term of a sum is `(x · n) · w` exactly as
  both programs compute it, so no finiteness of the inputs is needed to identify either program's layer with these.
  The zero of the clamp is kept as the float word it is printed with; it is the same word on both sides.
-/
import Idealize.ShloMosaic.PureOps.Ideal
import Idealize.ShloMosaic.Lib.ValueIdx

noncomputable section

open scoped BigOperators
open Idealize.ShloMosaic Idealize.ShloMosaic.ValueIdx

namespace Cert.Gcn

/-- A rank-2 array of extended reals of the given extents. -/
abbrev Arr (n0 n1 : Nat) : Type := (⟨2, ![n0, n1]⟩ : Shape).Idx → EReal

/-- The first layer: `max (∑ₖ (agg[r,k] · nd[r]) · w[k,c] + b[c]) 0` at row `r`, column `c`. -/
def hidden (agg : Arr 50000 128) (nd : Arr 50000 1) (w : Arr 128 256) (b : Arr 1 256) : Arr 50000 256 :=
  fun i => max ((∑ k : Fin 128, (agg (ix2 (i 0) k) * nd (ix2 (i 0) 0)) * w (ix2 k (i 1))) + b (ix2 0 (i 1)))
    (Ideal.ofBits .f32 0x00000000#32)

/-- The second layer's product: `∑ₖ (h[r,k] · ns[r]) · w[k,0]` at row `r` (the one column). -/
def readout (h : Arr 50000 256) (ns : Arr 50000 1) (w : Arr 256 1) : Arr 50000 1 :=
  fun i => ∑ k : Fin 256, (h (ix2 (i 0) k) * ns (ix2 (i 0) 0)) * w (ix2 k (i 1))

end Cert.Gcn

end
-- ==== Proof.ResultTerm.lean ====
/-
  What the kernel program leaves in its result buffer, as a function of the eight argument arrays.

  The program is: degree normalisations `n(e) = max(1, deg e)^(-1/2)` of the source and destination index arrays;
  the features scaled by the source normalisation, gathered along the edges and summed into their destinations; the first
  dense layer (kernel region 0); the second layer's product (kernel region 1); that product gathered along the edges and
  summed into the destinations, scaled by the destination normalisation, the bias added; and the mean over each graph's
  nodes: the per-graph sums divided by `max(1, per-graph count)`. The host operations are kept as the program spells
  them (nothing is read inside a gather or a scatter-add: the reference applies the same operations to the same
  values); the two kernel regions enter as `Cert.Gcn.hidden` and `Cert.Gcn.readout`.
-/
import proofs.«158170_j85306640433226_1_alg».proof.Proof.Gen.KernelIdeal
import proofs.«158170_j85306640433226_1_alg».proof.Proof.Spec
import Idealize.ShloMosaic.PureOps.Ideal

set_option maxRecDepth 16384

noncomputable section

open Idealize.ShloMosaic Idealize.ShloMosaic.TcCoe Idealize.SL.Sem

namespace Cert.Gcn.Kernel

open Cert.KernelIdeal Cert.KernelIdeal.Gen

/-- A float array of shape `s` at the ideal instance. -/
abbrev FArr (s : Shape) : Type := (⟨s, .f32⟩ : BufTy).Contents (Elt Ideal)
/-- An index array of shape `s`. -/
abbrev IArr (s : Shape) : Type := (⟨s, .i32⟩ : BufTy).Contents (Elt Ideal)

/-! ## The host stretches as functions -/

/-- `max(1, deg)^(-1/2)` per node, `deg` the number of edges whose endpoint array `e` names the node (a scatter-add of
    ones into zeros). -/
def degNorm (e : IArr S1600000) : FArr S50000 :=
  Host.powf (F := Ideal)
    (maximumf (broadcastInDim S50000 ![] bcast_S_S50000 (id (constant (F := Ideal) S_ .f32 0x3F800000#32)))
      (Host.scatterAdd (F := Ideal) scatter_S50000_S1600000x1_S1600000_n_0_0_1
        (broadcastInDim S50000 ![] bcast_S_S50000 (constant (F := Ideal) S_ .f32 0x00000000#32))
        (broadcastInDim S1600000x1 ![0] bcast_S1600000_S1600000x1_0 e)
        (broadcastInDim S1600000 ![] bcast_S_S1600000 (constant (F := Ideal) S_ .f32 0x3F800000#32))))
    (broadcastInDim S50000 ![] bcast_S_S50000 (constant (F := Ideal) S_ .f32 0xBF000000#32))

/-- A per-node vector as a column. -/
def col (v : FArr S50000) : FArr S50000x1 := broadcastInDim S50000x1 ![0] bcast_S50000_S50000x1_0 v

/-- The source indices as gather start indices: a negative index counts from the end. -/
def startIdx (src : IArr S1600000) : IArr S1600000x1 :=
  broadcastInDim S1600000x1 ![0] bcast_S1600000_S1600000x1_0
    (select (cmpi .slt src (broadcastInDim S1600000 ![] bcast_S_S1600000 (constantI S_ 32 0#32)))
      (addi src (broadcastInDim S1600000 ![] bcast_S_S1600000 (constantI S_ 32 50000#32))) src)

/-- The features scaled by the source normalisation, gathered along the edges, summed into the destinations. -/
def aggFeatures (x : FArr S50000x128) (src dst : IArr S1600000) : FArr S50000x128 :=
  Host.scatterAdd (F := Ideal) scatter_S50000x128_S1600000x1_S1600000x128_1_0_0_1
    (broadcastInDim S50000x128 ![] bcast_S_S50000x128 (constant (F := Ideal) S_ .f32 0x00000000#32))
    (broadcastInDim S1600000x1 ![0] bcast_S1600000_S1600000x1_0 dst)
    (Host.gather gather_S50000x128_S1600000x1_S1600000x128_1_0_n_n_0_1_1128
      (mulf x (broadcastInDim S50000x128 ![0, 1] bcast_S50000x1_S50000x128_0_1 (col (degNorm src))))
      (startIdx src))

/-- From the second layer's product `p` to the result: gathered along the edges and summed into the destinations, scaled
    by the destination normalisation `nd`, the bias `b2` added, then the mean over each graph's nodes. -/
def pool (p : FArr S50000x1) (src dst : IArr S1600000) (nd : FArr S50000x1) (b2 : FArr S1) (gid : IArr S50000) : FArr S64x1 :=
  Host.divf (F := Ideal)
    (Host.scatterAdd (F := Ideal) scatter_S64x1_S50000x1_S50000x1_1_0_0_1
      (broadcastInDim S64x1 ![] bcast_S_S64x1 (constant (F := Ideal) S_ .f32 0x00000000#32))
      (broadcastInDim S50000x1 ![0] bcast_S50000_S50000x1_0 gid)
      (addf
        (mulf
          (Host.scatterAdd (F := Ideal) scatter_S50000x1_S1600000x1_S1600000x1_1_0_0_1
            (broadcastInDim S50000x1 ![] bcast_S_S50000x1 (constant (F := Ideal) S_ .f32 0x00000000#32))
            (broadcastInDim S1600000x1 ![0] bcast_S1600000_S1600000x1_0 dst)
            (Host.gather gather_S50000x1_S1600000x1_S1600000x1_1_0_n_n_0_1_11 p (startIdx src)))
          nd)
        (broadcastInDim S50000x1 ![0, 1] bcast_S1x1_S50000x1_0_1 (broadcastInDim S1x1 ![1] bcast_S1_S1x1_1 b2))))
    (maximumf
      (broadcastInDim S64x1 ![] bcast_S_S64x1 (id (constant (F := Ideal) S_ .f32 0x3F800000#32)))
      (Host.scatterAdd (F := Ideal) scatter_S64x1_S50000x1_S50000x1_1_0_0_1
        (broadcastInDim S64x1 ![] bcast_S_S64x1 (constant (F := Ideal) S_ .f32 0x00000000#32))
        (broadcastInDim S50000x1 ![0] bcast_S50000_S50000x1_0 gid)
        (broadcastInDim S50000x1 ![] bcast_S_S50000x1 (constant (F := Ideal) S_ .f32 0x3F800000#32))))

/-- The kernel program's result as a function of its eight arguments. -/
def result (x : FArr S50000x128) (src dst : IArr S1600000) (gid : IArr S50000) (w1 : FArr S128x256) (b1 : FArr S256)
    (w2 : FArr S256x1) (b2 : FArr S1) : FArr S64x1 :=
  pool
    (Cert.Gcn.readout
      (Cert.Gcn.hidden (aggFeatures x src dst) (col (degNorm dst)) w1 (shapeCast S1x256 b1 shapeCasts_S256_S1x256))
      (col (degNorm src)) w2)
    src dst (col (degNorm dst)) b2 gid

end Cert.Gcn.Kernel

end
-- ==== Proof.HiddenValue.lean ====
/-
  The first dense layer as the kernel computes it: after the 25 row blocks of 2000 rows have been written back, the
  layer's output array is `Cert.Gcn.hidden` of the four arrays the region read.
-/
import proofs.«158170_j85306640433226_1_alg».proof.Proof.Gen.KernelIdeal.Frame
import proofs.«158170_j85306640433226_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open Idealize.ShloMosaic Idealize.ShloMosaic.TcCoe Idealize.SL.Sem Idealize.ShloMosaic.ValueIdx
open Idealize.ShloMosaic.Pipeline (Dat)

namespace Cert.Gcn.Kernel

open Cert.KernelIdeal Cert.KernelIdeal.Gen

/-! ## The matrix product's operand indices

At output index `i` and summation index `q` the left operand is read at (row of `i`, `q`) and the right operand at
(`q`, column of `i`). -/

/-- The left operand is read at the output's row … -/
theorem lhs_row (i : S2000x256.Idx) (q : dot_S2000x128_S128x256_S2000x256_1_0_0_1_n_n.contr.Idx) :
    (dot_S2000x128_S128x256_S2000x256_1_0_0_1_n_n.lhsIdx i q 0).val = (i 0).val := by
  unfold DotDims.lhsIdx
  rw [dif_neg (show ¬(0 : Fin S2000x128.rank) ∈ dot_S2000x128_S128x256_S2000x256_1_0_0_1_n_n.lhsBatch by decide), dif_pos (show (0 : Fin S2000x128.rank) ∈ dot_S2000x128_S128x256_S2000x256_1_0_0_1_n_n.lhsNonContracting by decide)]
  rfl
/-- … and at the summation index; -/
theorem lhs_feature (i : S2000x256.Idx) (q : dot_S2000x128_S128x256_S2000x256_1_0_0_1_n_n.contr.Idx) :
    (dot_S2000x128_S128x256_S2000x256_1_0_0_1_n_n.lhsIdx i q 1).val = (q ⟨0, by decide⟩).val :=
  dot_S2000x128_S128x256_S2000x256_1_0_0_1_n_n.lhsIdx_val_of_single rfl i q
/-- the right operand at the summation index … -/
theorem rhs_feature (i : S2000x256.Idx) (q : dot_S2000x128_S128x256_S2000x256_1_0_0_1_n_n.contr.Idx) :
    (dot_S2000x128_S128x256_S2000x256_1_0_0_1_n_n.rhsIdx i q 0).val = (q ⟨0, by decide⟩).val :=
  dot_S2000x128_S128x256_S2000x256_1_0_0_1_n_n.rhsIdx_val_of_single rfl i q
/-- … and at the output's column. -/
theorem rhs_column (i : S2000x256.Idx) (q : dot_S2000x128_S128x256_S2000x256_1_0_0_1_n_n.contr.Idx) :
    (dot_S2000x128_S128x256_S2000x256_1_0_0_1_n_n.rhsIdx i q 1).val = (i 1).val := by
  unfold DotDims.rhsIdx
  rw [dif_neg (show ¬(1 : Fin S128x256.rank) ∈ dot_S2000x128_S128x256_S2000x256_1_0_0_1_n_n.rhsBatch by decide), dif_pos (show (1 : Fin S128x256.rank) ∈ dot_S2000x128_S128x256_S2000x256_1_0_0_1_n_n.rhsNonContracting by decide)]
  rfl

/-! ## One block's arithmetic at an index -/

/-- One column spread over many columns (`[a, 1] → [a, b]`), read at row `p` and column `c`, is the column's entry at
    row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The body's arithmetic at row `p`, column `q` of a block: row `p` of `x0` scaled by entry `p` of the column `x1`,
    multiplied into column `q` of `x2` (a sum over the 128 features), plus the bias `x3` at `q`, clamped below at
    zero. Over the extended reals the narrowing of the two factors is the identity and the product into the zero
    accumulator is the bare sum. -/
theorem payload_apply (x0 : Vec Ideal S2000x128 .f32) (x1 : Vec Ideal S2000x1 .f32) (x2 : Vec Ideal S128x256 .f32)
    (x3 : Vec Ideal S1x256 .f32) (p : Fin 2000) (q : Fin 256) :
    k0_pay1 (F := Ideal) x0 x1 x2 x3 (ix2 p q)
      = max ((∑ k : Fin 128, (x0 (ix2 p k) * x1 (ix2 p 0)) * x2 (ix2 k q)) + x3 (ix2 0 q))
          (Ideal.ofBits .f32 0x00000000#32) := by
  unfold k0_pay1
  simp only [shapeCast_self]
  rw [maximumf_apply, broadcast_apply, addf_apply, broadcastTo_1b_ab_apply]
  simp only [matmul]
  rw [Ideal.matmul_constant_zero_apply, ← Equiv.sum_comp (contrEquiv1 dot_S2000x128_S128x256_S2000x256_1_0_0_1_n_n 128 rfl rfl).symm]
  refine congrArg₂ max (congrArg₂ (· + ·) (Finset.sum_congr rfl fun k _ => ?_) rfl) rfl
  have hk := contrEquiv1_symm_val dot_S2000x128_S128x256_S2000x256_1_0_0_1_n_n 128 rfl rfl k
  have el : dot_S2000x128_S128x256_S2000x256_1_0_0_1_n_n.lhsIdx (ix2 p q) ((contrEquiv1 dot_S2000x128_S128x256_S2000x256_1_0_0_1_n_n 128 rfl rfl).symm k) = ix2 p k := funext fun a => Fin.ext (by
    match a with
    | ⟨0, _⟩ => exact lhs_row _ _
    | ⟨1, _⟩ => exact (lhs_feature _ _).trans hk)
  have er : dot_S2000x128_S128x256_S2000x256_1_0_0_1_n_n.rhsIdx (ix2 p q) ((contrEquiv1 dot_S2000x128_S128x256_S2000x256_1_0_0_1_n_n 128 rfl rfl).symm k) = ix2 k q := funext fun a => Fin.ext (by
    match a with
    | ⟨0, _⟩ => exact (rhs_feature _ _).trans hk
    | ⟨1, _⟩ => exact rhs_column _ _)
  rw [el, er, truncf_apply, truncf_apply, mulf_apply, broadcastTo_a1_ab_apply]

/-! ## From the 25 row blocks to the array -/

theorem zero_offsets : (![0, 0] : Fin 2 → Nat) = fun _ => 0 := funext fun a => by fin_cases a <;> rfl

/-- The block index maps over the 25 grid points: the three row windows (features, normalisation, output) sit at block
    row `t`, block column 0; the weight and bias windows stay at block (0, 0). -/
theorem block_indices : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-- What point `t` writes back is block `t` of the first layer of the four arrays: row `p` of the point's feature and
    normalisation blocks is row `2000 · t + p` of their arrays, the weight and bias blocks are their whole arrays, and
    row `p` of the output block is row `2000 · t + p` of the output. -/
theorem written_back (V : (c : Dev nD) → (b : Ref sig .tc) → Buf (Elt Ideal) ((c : Thread nD τ).loc b)) (c : Dev nD)
    (t : Fin cfg0.N) :
    (dat0 (F := Ideal) V c).flushed 4 t
      = ((cfg0.win 4).blk t).view.read (Elt Ideal)
          (Cert.Gcn.hidden (V c main_v26) (V c main_v14) (V c main_arg4) (V c main_v27)) := by
  show (cfg0.win 4).cut (grid0.coords t) ((dat0 (F := Ideal) V c).after 4 t) = _
  rw [after0_4]
  unfold out0_4
  rw [View.canon_unit_zero zero_offsets]
  simp only [View.ld_unit_zero (S := S2000x128) zero_offsets, View.ld_unit_zero (S := S2000x1) zero_offsets,
    View.ld_unit_zero (S := S128x256) zero_offsets, View.ld_unit_zero (S := S1x256) zero_offsets]
  funext j
  obtain ⟨p, q, rfl⟩ : ∃ (p : Fin 2000) (q : Fin 256), j = ix2 p q := ⟨j 0, j 1, eq_ix2 j⟩
  obtain ⟨a0, a1, b0, b1, w0, w1, s0, s1, o0, o1⟩ := block_indices t
  have hN : cfg0.N = 25 := N_0
  have ht : t.val < 25 := hN ▸ t.isLt
  have hp : p.val < 2000 := p.isLt
  show k0_pay1 (F := Ideal) (iblk0 V c 0 t) (iblk0 V c 1 t) (iblk0 V c 2 t) (iblk0 V c 3 t) (ix2 p q)
      = Cert.Gcn.hidden (V c main_v26) (V c main_v14) (V c main_arg4) (V c main_v27) (((cfg0.win 4).blk t).view.emb (ix2 p q))
  refine (payload_apply (iblk0 V c 0 t) (iblk0 V c 1 t) (iblk0 V c 2 t) (iblk0 V c 3 t) p q).trans ?_
  have hrow : ((cfg0.win 4).blk t).view.emb (ix2 p q) = ix2 (⟨t.val * 2000 + p.val, by omega⟩ : Fin 50000) q := by
    funext a; apply Fin.ext
    match a with
    | ⟨0, _⟩ => show win0_4.index t (0 : Fin 2) * 2000 + 1 * p.val = t.val * 2000 + p.val; omega
    | ⟨1, _⟩ => show win0_4.index t (1 : Fin 2) * 256 + 1 * q.val = q.val; omega
  rw [hrow]
  have e0 : ∀ k : Fin 128, iblk0 V c 0 t (ix2 p k)
      = (V c main_v26 : S50000x128.Idx → EReal) (ix2 (⟨t.val * 2000 + p.val, by omega⟩ : Fin 50000) k) := fun k => by
    show V c main_v26 (((cfg0.win 0).blk t).view.emb (ix2 p k)) = _
    refine congrArg _ (funext fun a => Fin.ext ?_)
    match a with
    | ⟨0, _⟩ => show win0_0.index t (0 : Fin 2) * 2000 + 1 * p.val = t.val * 2000 + p.val; omega
    | ⟨1, _⟩ => show win0_0.index t (1 : Fin 2) * 128 + 1 * k.val = k.val; omega
  have e1 : iblk0 V c 1 t (ix2 p (0 : Fin 1))
      = (V c main_v14 : S50000x1.Idx → EReal) (ix2 (⟨t.val * 2000 + p.val, by omega⟩ : Fin 50000) (0 : Fin 1)) := by
    show V c main_v14 (((cfg0.win 1).blk t).view.emb (ix2 p (0 : Fin 1))) = _
    refine congrArg _ (funext fun a => Fin.ext ?_)
    match a with
    | ⟨0, _⟩ => show win0_1.index t (0 : Fin 2) * 2000 + 1 * p.val = t.val * 2000 + p.val; omega
    | ⟨1, _⟩ => show win0_1.index t (1 : Fin 2) * 1 + 1 * 0 = 0; omega
  have e2 : ∀ k : Fin 128, iblk0 V c 2 t (ix2 k q) = (V c main_arg4 : S128x256.Idx → EReal) (ix2 k q) := fun k => by
    show V c main_arg4 (((cfg0.win 2).blk t).view.emb (ix2 k q)) = _
    refine congrArg _ (funext fun a => Fin.ext ?_)
    match a with
    | ⟨0, _⟩ => show win0_2.index t (0 : Fin 2) * 128 + 1 * k.val = k.val; omega
    | ⟨1, _⟩ => show win0_2.index t (1 : Fin 2) * 256 + 1 * q.val = q.val; omega
  have e3 : iblk0 V c 3 t (ix2 (0 : Fin 1) q) = (V c main_v27 : S1x256.Idx → EReal) (ix2 (0 : Fin 1) q) := by
    show V c main_v27 (((cfg0.win 3).blk t).view.emb (ix2 (0 : Fin 1) q)) = _
    refine congrArg _ (funext fun a => Fin.ext ?_)
    match a with
    | ⟨0, _⟩ => show win0_3.index t (0 : Fin 2) * 1 + 1 * 0 = 0; omega
    | ⟨1, _⟩ => show win0_3.index t (1 : Fin 2) * 256 + 1 * q.val = q.val; omega
  rw [e1, e3]
  simp only [e0, e2]
  rfl

/-- An index of the output array lies in point `t`'s block iff each coordinate lies in the block's range on its axis. -/
theorem mem_block (t : Fin cfg0.N) (i : S50000x256.Idx) :
    i ∈ ((cfg0.win 4).blk t).view.set ↔ ∀ a : Fin 2, win0_4.index t a * S2000x256.size a ≤ (i a).val
      ∧ (i a).val < win0_4.index t a * S2000x256.size a + S2000x256.size a := by
  show i ∈ ((View.whole main_v28).slice (win0_4.rect t)).set ↔ _
  rw [View.set_slice_whole, Rect.mem_set_unit]
  exact Iff.rfl

/-- The 25 blocks of 2000 rows tile the 50000 rows: row `r` is written back by point `r / 2000`. -/
theorem row_covered (i : S50000x256.Idx) :
    ∃ t : Fin cfg0.N, (cfg0.win 4).flush t = true ∧ i ∈ ((cfg0.win 4).blk t).view.set := by
  have hN : cfg0.N = 25 := N_0
  have hi0 : (i 0).val < 50000 := (i 0).isLt
  have hi1 : (i 1).val < 256 := (i 1).isLt
  obtain ⟨t, ht⟩ : ∃ t : Fin cfg0.N, t.val = (i 0).val / 2000 := ⟨⟨(i 0).val / 2000, by rw [hN]; omega⟩, rfl⟩
  obtain ⟨-, -, -, -, -, -, -, -, o0, o1⟩ := block_indices t
  refine ⟨t, flush0_4 t, ?_⟩
  rw [mem_block]
  intro a
  match a with
  | ⟨0, _⟩ =>
    show win0_4.index t (0 : Fin 2) * 2000 ≤ (i 0).val ∧ (i 0).val < win0_4.index t (0 : Fin 2) * 2000 + 2000
    omega
  | ⟨1, _⟩ =>
    show win0_4.index t (1 : Fin 2) * 256 ≤ (i 1).val ∧ (i 1).val < win0_4.index t (1 : Fin 2) * 256 + 256
    omega

/-- Whatever the buffers hold when the first region is entered (`V`), its output array after the last write-back is the
    first layer of the aggregated features `V main_v26`, the destination normalisation `V main_v14`, the weights
    `V main_arg4` and the bias row `V main_v27`. -/
theorem hidden_value (V : (c : Dev nD) → (b : Ref sig .tc) → Buf (Elt Ideal) ((c : Thread nD τ).loc b)) (c : Dev nD) :
    (dat0 (F := Ideal) V c).arrAt 4 cfg0.N
      = Cert.Gcn.hidden (V c main_v26) (V c main_v14) (V c main_arg4) (V c main_v27) :=
  (dat0 (F := Ideal) V c).arrAt_eq_of_cover 4
    (Cert.Gcn.hidden (V c main_v26) (V c main_v14) (V c main_arg4) (V c main_v27))
    (fun t _ => written_back V c t) row_covered

end Cert.Gcn.Kernel

end
-- ==== Proof.ReadoutValue.lean ====
/-
  The second dense layer's product as the kernel computes it: after the 25 row blocks of 2000 rows have been written
  back, the region's output array is `Cert.Gcn.readout` of the three arrays the region read.
-/
import proofs.«158170_j85306640433226_1_alg».proof.Proof.Gen.KernelIdeal.Frame
import proofs.«158170_j85306640433226_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open Idealize.ShloMosaic Idealize.ShloMosaic.TcCoe Idealize.SL.Sem Idealize.ShloMosaic.ValueIdx
open Idealize.ShloMosaic.Pipeline (Dat)

namespace Cert.Gcn.Kernel

open Cert.KernelIdeal Cert.KernelIdeal.Gen

namespace Readout

/-! ## One row block's product, entry by entry -/

/-- The product's left operand at output entry `i` and contraction index `q` is read on row `i 0` … -/
theorem lhs_row (i : S2000x1.Idx) (q : dot_S2000x256_S256x1_S2000x1_1_0_0_1_n_n.contr.Idx) :
    (dot_S2000x256_S256x1_S2000x1_1_0_0_1_n_n.lhsIdx i q 0).val = (i 0).val := by
  unfold DotDims.lhsIdx
  rw [dif_neg (show ¬(0 : Fin S2000x256.rank) ∈ dot_S2000x256_S256x1_S2000x1_1_0_0_1_n_n.lhsBatch by decide), dif_pos (show (0 : Fin S2000x256.rank) ∈ dot_S2000x256_S256x1_S2000x1_1_0_0_1_n_n.lhsNonContracting by decide)]
  rfl
/-- … in the column the contraction index names. -/
theorem lhs_col (i : S2000x1.Idx) (q : dot_S2000x256_S256x1_S2000x1_1_0_0_1_n_n.contr.Idx) :
    (dot_S2000x256_S256x1_S2000x1_1_0_0_1_n_n.lhsIdx i q 1).val = (q ⟨0, by decide⟩).val :=
  dot_S2000x256_S256x1_S2000x1_1_0_0_1_n_n.lhsIdx_val_of_single rfl i q
/-- The right operand is read on the row the contraction index names … -/
theorem rhs_row (i : S2000x1.Idx) (q : dot_S2000x256_S256x1_S2000x1_1_0_0_1_n_n.contr.Idx) :
    (dot_S2000x256_S256x1_S2000x1_1_0_0_1_n_n.rhsIdx i q 0).val = (q ⟨0, by decide⟩).val :=
  dot_S2000x256_S256x1_S2000x1_1_0_0_1_n_n.rhsIdx_val_of_single rfl i q
/-- … in column `i 1`. -/
theorem rhs_col (i : S2000x1.Idx) (q : dot_S2000x256_S256x1_S2000x1_1_0_0_1_n_n.contr.Idx) :
    (dot_S2000x256_S256x1_S2000x1_1_0_0_1_n_n.rhsIdx i q 1).val = (i 1).val := by
  unfold DotDims.rhsIdx
  rw [dif_neg (show ¬(1 : Fin S256x1.rank) ∈ dot_S2000x256_S256x1_S2000x1_1_0_0_1_n_n.rhsBatch by decide), dif_pos (show (1 : Fin S256x1.rank) ∈ dot_S2000x256_S256x1_S2000x1_1_0_0_1_n_n.rhsNonContracting by decide)]
  rfl

/-- What the body stores at row `p` of its block: the features' row `p`, scaled by that row's normalisation, times the
    weight column — a sum of 256 products into the zero accumulator, the format changes being the identity on the
    extended reals. -/
theorem block_product (x0 : Vec Ideal S2000x256 .f32) (x1 : Vec Ideal S2000x1 .f32) (x2 : Vec Ideal S256x1 .f32)
    (p : Fin 2000) (q : Fin 1) :
    k1_pay1 (F := Ideal) x0 x1 x2 (ix2 p q) = ∑ k : Fin 256, (x0 (ix2 p k) * x1 (ix2 p 0)) * x2 (ix2 k q) := by
  unfold k1_pay1
  simp only [shapeCast_self, matmul]
  rw [Ideal.matmul_constant_zero_apply, ← Equiv.sum_comp (contrEquiv1 dot_S2000x256_S256x1_S2000x1_1_0_0_1_n_n 256 rfl rfl).symm]
  refine Finset.sum_congr rfl fun k _ => ?_
  have hk := contrEquiv1_symm_val dot_S2000x256_S256x1_S2000x1_1_0_0_1_n_n 256 rfl rfl k
  have el : dot_S2000x256_S256x1_S2000x1_1_0_0_1_n_n.lhsIdx (ix2 p q) ((contrEquiv1 dot_S2000x256_S256x1_S2000x1_1_0_0_1_n_n 256 rfl rfl).symm k) = ix2 p k := funext fun a => Fin.ext (by
    match a with
    | ⟨0, _⟩ => exact lhs_row _ _
    | ⟨1, _⟩ => exact (lhs_col _ _).trans hk)
  have er : dot_S2000x256_S256x1_S2000x1_1_0_0_1_n_n.rhsIdx (ix2 p q) ((contrEquiv1 dot_S2000x256_S256x1_S2000x1_1_0_0_1_n_n 256 rfl rfl).symm k) = ix2 k q := funext fun a => Fin.ext (by
    match a with
    | ⟨0, _⟩ => exact (rhs_row _ _).trans hk
    | ⟨1, _⟩ => exact rhs_col _ _)
  rw [el, er, truncf_apply, truncf_apply, mulf_apply]
  rw [broadcastTo_apply x1 broadcasts_S2000x1_S2000x256 (ix2 p k) (ix2 p 0) (fun a => match a with
    | ⟨0, _⟩ => by show p.val = if (2000 : Nat) = 1 then 0 else p.val; rw [if_neg (by decide)]
    | ⟨1, _⟩ => by show 0 = if (1 : Nat) = 1 then 0 else k.val; rw [if_pos rfl])]

/-! ## Where each block sits in its array -/

/-- The body reads and writes its blocks whole: from offset zero on both axes. -/
theorem zero_offsets : (![0, 0] : Fin 2 → Nat) = fun _ => 0 := funext fun a => by
  match a with
  | ⟨0, _⟩ => rfl
  | ⟨1, _⟩ => rfl

/-- The block index maps over the 25 grid points: the three row-blocked arrays (features, normalisation, result) are at
    row block `t`, column block 0; the weight column is one block. -/
theorem block_indices : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

section AtEntry

variable (V : (c : Dev nD) → (b : Ref sig .tc) → Buf (Elt Ideal) ((c : Thread nD τ).loc b)) (c : Dev nD)

/-- Row `p` of the features' block at point `t` is row `2000 t + p` of the hidden features. -/
theorem features_block (t : Fin cfg1.N) (p : Fin 2000) (k : Fin 256) (r : Fin 50000) (hr : r.val = 2000 * t.val + p.val) :
    (iblk1 (F := Ideal) V c 0 t : Vec Ideal S2000x256 .f32) (ix2 p k) = (V c main_v28 : S50000x256.Idx → EReal) (ix2 r k) := by
  obtain ⟨e0, e1, -⟩ := block_indices t
  unfold iblk1
  rw [View.read_apply]
  show V c main_v28 _ = V c main_v28 _
  congr 1
  funext a
  apply Fin.ext
  match a with
  | ⟨0, _⟩ => show win1_0.index t (0 : Fin 2) * 2000 + 1 * p.val = r.val; rw [e0, hr]; omega
  | ⟨1, _⟩ => show win1_0.index t (1 : Fin 2) * 256 + 1 * k.val = k.val; rw [e1]; omega

/-- Row `p` of the normalisation's block at point `t` is row `2000 t + p` of the source normalisation. -/
theorem norm_block (t : Fin cfg1.N) (p : Fin 2000) (r : Fin 50000) (hr : r.val = 2000 * t.val + p.val) :
    (iblk1 (F := Ideal) V c 1 t : Vec Ideal S2000x1 .f32) (ix2 p 0) = (V c main_v13 : S50000x1.Idx → EReal) (ix2 r 0) := by
  obtain ⟨-, -, e0, e1, -⟩ := block_indices t
  unfold iblk1
  rw [View.read_apply]
  show V c main_v13 _ = V c main_v13 _
  congr 1
  funext a
  apply Fin.ext
  match a with
  | ⟨0, _⟩ => show win1_1.index t (0 : Fin 2) * 2000 + 1 * p.val = r.val; rw [e0, hr]; omega
  | ⟨1, _⟩ => show win1_1.index t (1 : Fin 2) * 1 + 1 * 0 = 0; rw [e1]

/-- The weight's block at every point is the weight column itself. -/
theorem weight_block (t : Fin cfg1.N) (k : Fin 256) (q : Fin 1) :
    (iblk1 (F := Ideal) V c 2 t : Vec Ideal S256x1 .f32) (ix2 k q) = (V c main_arg6 : S256x1.Idx → EReal) (ix2 k q) := by
  obtain ⟨-, -, -, -, e0, e1, -⟩ := block_indices t
  unfold iblk1
  rw [View.read_apply]
  show V c main_arg6 _ = V c main_arg6 _
  congr 1
  funext a
  apply Fin.ext
  match a with
  | ⟨0, _⟩ => show win1_2.index t (0 : Fin 2) * 256 + 1 * k.val = k.val; rw [e0]; omega
  | ⟨1, _⟩ => show win1_2.index t (1 : Fin 2) * 1 + 1 * q.val = q.val; rw [e1]; omega

/-! ## What a grid point writes back, and the whole array -/

/-- The second layer's product at row `r`, spelled out. -/
theorem readout_row (h : Arr 50000 256) (ns : Arr 50000 1) (w : Arr 256 1) (r : Fin 50000) (q : Fin 1) :
    Cert.Gcn.readout h ns w (ix2 r q) = ∑ k : Fin 256, (h (ix2 r k) * ns (ix2 r 0)) * w (ix2 k q) := rfl

/-- What point `t` writes back is row block `t` of the second layer's product of the arrays the region read. -/
theorem written_block (t : Fin cfg1.N) :
    (dat1 (F := Ideal) V c).flushed 3 t
      = ((cfg1.win 3).blk t).view.read (Elt Ideal) (Cert.Gcn.readout (V c main_v28) (V c main_v13) (V c main_arg6)) := by
  show (cfg1.win 3).cut (grid1.coords t) ((dat1 (F := Ideal) V c).after 3 t) = _
  rw [after1_3]
  unfold out1_3
  rw [View.canon_unit_zero zero_offsets]
  simp only [View.ld_unit_zero (S := S2000x256) zero_offsets, View.ld_unit_zero (S := S2000x1) zero_offsets,
    View.ld_unit_zero (S := S256x1) zero_offsets]
  funext j
  obtain ⟨p, q, rfl⟩ : ∃ (p : Fin 2000) (q : Fin 1), j = ix2 p q := ⟨j 0, j 1, eq_ix2 j⟩
  have ht : t.val < 25 := lt_of_lt_of_eq t.isLt N_1
  obtain ⟨r, hr⟩ : ∃ r : Fin 50000, r.val = 2000 * t.val + p.val := ⟨⟨2000 * t.val + p.val, by omega⟩, rfl⟩
  obtain ⟨-, -, -, -, -, -, e0, e1⟩ := block_indices t
  have hi : ((cfg1.win 3).blk t).view.emb (ix2 p q) = (ix2 r q : S50000x1.Idx) := by
    funext a
    apply Fin.ext
    match a with
    | ⟨0, _⟩ => show win1_3.index t (0 : Fin 2) * 2000 + 1 * p.val = r.val; rw [e0, hr]; omega
    | ⟨1, _⟩ => show win1_3.index t (1 : Fin 2) * 1 + 1 * q.val = q.val; rw [e1]; omega
  show k1_pay1 (F := Ideal) (iblk1 V c 0 t) (iblk1 V c 1 t) (iblk1 V c 2 t) (ix2 p q) = _
  refine (block_product _ _ _ p q).trans ?_
  rw [View.read_apply]
  show _ = Cert.Gcn.readout (V c main_v28) (V c main_v13) (V c main_arg6) (((cfg1.win 3).blk t).view.emb (ix2 p q))
  rw [hi]
  rw [readout_row]
  refine Finset.sum_congr rfl fun k _ => ?_
  rw [features_block V c t p k r hr, norm_block V c t p r hr, weight_block V c t k q]

end AtEntry

/-- An entry of the result array is in point `t`'s block when each coordinate is in the block's range on its axis. -/
theorem mem_block (t : Fin cfg1.N) (i : S50000x1.Idx) :
    i ∈ ((cfg1.win 3).blk t).view.set ↔ ∀ a : Fin 2, win1_3.index t a * S2000x1.size a ≤ (i a).val ∧ (i a).val < win1_3.index t a * S2000x1.size a + S2000x1.size a := by
  show i ∈ ((View.whole main_v29).slice (win1_3.rect t)).set ↔ _
  rw [View.set_slice_whole, Rect.mem_set_unit]
  exact Iff.rfl

/-- The 25 row blocks cover the result array: row `r` is in the block of point `r / 2000`, which writes back. -/
theorem rows_covered (i : S50000x1.Idx) :
    ∃ t : Fin cfg1.N, (cfg1.win 3).flush t = true ∧ i ∈ ((cfg1.win 3).blk t).view.set := by
  have hi0 : (i 0).val < 50000 := (i 0).isLt
  have hi1 : (i 1).val < 1 := (i 1).isLt
  have hN : cfg1.N = 25 := N_1
  let t : Fin cfg1.N := ⟨(i 0).val / 2000, by rw [hN]; omega⟩
  obtain ⟨-, -, -, -, -, -, e0, e1⟩ := block_indices t
  have ht : t.val = (i 0).val / 2000 := rfl
  refine ⟨t, flush1_3 t, ?_⟩
  rw [mem_block]
  intro a
  match a with
  | ⟨0, _⟩ => show win1_3.index t (0 : Fin 2) * 2000 ≤ (i 0).val ∧ (i 0).val < win1_3.index t (0 : Fin 2) * 2000 + 2000; rw [e0, ht]; omega
  | ⟨1, _⟩ => show win1_3.index t (1 : Fin 2) * 1 ≤ (i 1).val ∧ (i 1).val < win1_3.index t (1 : Fin 2) * 1 + 1; rw [e1]; omega

end Readout

/-- Whatever the buffers hold when the second region is entered (`V`), its output array after the last write-back is the
    second layer's product of the hidden features `V main_v28`, the source normalisation `V main_v13` and the weight
    column `V main_arg6`. -/
theorem readout_value (V : (c : Dev nD) → (b : Ref sig .tc) → Buf (Elt Ideal) ((c : Thread nD τ).loc b)) (c : Dev nD) :
    (dat1 (F := Ideal) V c).arrAt 3 cfg1.N
      = Cert.Gcn.readout (V c main_v28) (V c main_v13) (V c main_arg6) :=
  (dat1 (F := Ideal) V c).arrAt_eq_of_cover 3 (Cert.Gcn.readout (V c main_v28) (V c main_v13) (V c main_arg6))
    (fun t _ => Readout.written_block V c t) Readout.rows_covered

end Cert.Gcn.Kernel

end
-- ==== Proof.KernelResult.lean ====
/-
  The kernel program's result buffer IS `Cert.Gcn.Kernel.result` of the eight argument arrays: the fold through @main's
  segments read back stretch by stretch. The stretches before the regions are read at the buffers the regions and the
  tail use; region 0's output is `Cert.Gcn.hidden` of its four arrays and region 1's is `Cert.Gcn.readout` of its three
  (their value lemmas); an array a region only reads is unchanged at its exit; the tail is read at the result buffer.
-/
import proofs.«158170_j85306640433226_1_alg».proof.Proof.Gen.KernelIdeal.Frame
import proofs.«158170_j85306640433226_1_alg».proof.Proof.ResultTerm
import proofs.«158170_j85306640433226_1_alg».proof.Proof.HiddenValue
import proofs.«158170_j85306640433226_1_alg».proof.Proof.ReadoutValue
import Idealize.ShloMosaic.Lib.StableHlo.Run

set_option maxRecDepth 16384

noncomputable section

open Idealize.ShloMosaic Idealize.ShloMosaic.TcCoe Idealize.SL.Sem Idealize.ShloMosaic.StableHlo

namespace Cert.Gcn.Kernel

open Cert.KernelIdeal Cert.KernelIdeal.Gen

/-! ## A called function's values are stored at their buffers' own types: the transports are identities -/

section Casts

/-- Contents carried to a buffer's own type and back are the contents. -/
theorem ofBuf_toBuf {T : BufTy} (x : StableHlo.TRef sig T) (v : T.Contents (Elt Ideal)) : x.ofBuf (x.toBuf v) = v := by
  obtain ⟨r, h, _, _⟩ := x
  subst h
  rfl

theorem ofBuf_cst_2 (h1 : main_cst_2.ty = ⟨S_, .f32⟩) (h2 : main_cst_2.space ≠ .host) (h3 : main_cst_2.isScoped = false)
    (v : FArr S_) : (StableHlo.TRef.of (T := ⟨S_, .f32⟩) main_cst_2 h1 h2 h3).ofBuf v = v := rfl
theorem ofBuf_v3 (h1 : main_v3.ty = ⟨S50000, .f32⟩) (h2 : main_v3.space ≠ .host) (h3 : main_v3.isScoped = false)
    (v : FArr S50000) : (StableHlo.TRef.of (T := ⟨S50000, .f32⟩) main_v3 h1 h2 h3).ofBuf v = v := rfl
theorem toBuf_v7 (h1 : main_v7.ty = ⟨S50000, .f32⟩) (h2 : main_v7.space ≠ .host) (h3 : main_v7.isScoped = false)
    (v : FArr S50000) : (StableHlo.TRef.of (T := ⟨S50000, .f32⟩) main_v7 h1 h2 h3).toBuf v = v := rfl
theorem ofBuf_cst_4 (h1 : main_cst_4.ty = ⟨S_, .f32⟩) (h2 : main_cst_4.space ≠ .host) (h3 : main_cst_4.isScoped = false)
    (v : FArr S_) : (StableHlo.TRef.of (T := ⟨S_, .f32⟩) main_cst_4 h1 h2 h3).ofBuf v = v := rfl
theorem ofBuf_v6 (h1 : main_v6.ty = ⟨S50000, .f32⟩) (h2 : main_v6.space ≠ .host) (h3 : main_v6.isScoped = false)
    (v : FArr S50000) : (StableHlo.TRef.of (T := ⟨S50000, .f32⟩) main_v6 h1 h2 h3).ofBuf v = v := rfl
theorem toBuf_v10 (h1 : main_v10.ty = ⟨S50000, .f32⟩) (h2 : main_v10.space ≠ .host) (h3 : main_v10.isScoped = false)
    (v : FArr S50000) : (StableHlo.TRef.of (T := ⟨S50000, .f32⟩) main_v10 h1 h2 h3).toBuf v = v := rfl
theorem ofBuf_cst_14 (h1 : main_cst_14.ty = ⟨S_, .f32⟩) (h2 : main_cst_14.space ≠ .host) (h3 : main_cst_14.isScoped = false)
    (v : FArr S_) : (StableHlo.TRef.of (T := ⟨S_, .f32⟩) main_cst_14 h1 h2 h3).ofBuf v = v := rfl
theorem ofBuf_v50 (h1 : main_v50.ty = ⟨S64x1, .f32⟩) (h2 : main_v50.space ≠ .host) (h3 : main_v50.isScoped = false)
    (v : FArr S64x1) : (StableHlo.TRef.of (T := ⟨S64x1, .f32⟩) main_v50 h1 h2 h3).ofBuf v = v := rfl
theorem toBuf_v51 (h1 : main_v51.ty = ⟨S64x1, .f32⟩) (h2 : main_v51.space ≠ .host) (h3 : main_v51.isScoped = false)
    (v : FArr S64x1) : (StableHlo.TRef.of (T := ⟨S64x1, .f32⟩) main_v51 h1 h2 h3).toBuf v = v := rfl

end Casts

/-! ## The stretches before the regions, read at the buffers the regions and the tail use -/

section Before

variable (X : Valuation τ sig (Elt Ideal))

/-- The buffer contents when region 0 is entered, from contents `X` at launch. -/
abbrev entry : Valuation τ sig (Elt Ideal) :=
  StableHlo.after (hostOps0_4 (F := Ideal)) (StableHlo.after hostOps0_3 (StableHlo.after hostOps0_2
    (StableHlo.after hostOps0_1 (StableHlo.after hostOps0 X))))

/-- The aggregated features region 0 reads. -/
theorem entry_v26 : entry X (Proc.devRef .tc main_v26)
    = aggFeatures (X (Proc.devRef .tc main_arg0)) (X (Proc.devRef .tc main_arg1)) (X (Proc.devRef .tc main_arg2)) := by
  dsimp only [entry, hostOps0_4, hostOps0_3, hostOps0_2, hostOps0_1, hostOps0]
  after_results_simp
  simp only [ofBuf_toBuf, ofBuf_cst_2, ofBuf_v3, toBuf_v7]
  rfl

/-- The destination normalisation, as a column. -/
theorem entry_v14 : entry X (Proc.devRef .tc main_v14) = col (degNorm (X (Proc.devRef .tc main_arg2))) := by
  dsimp only [entry, hostOps0_4, hostOps0_3, hostOps0_2, hostOps0_1, hostOps0]
  after_results_simp
  simp only [ofBuf_toBuf, ofBuf_cst_4, ofBuf_v6, toBuf_v10]
  rfl

/-- The source normalisation, as a column. -/
theorem entry_v13 : entry X (Proc.devRef .tc main_v13) = col (degNorm (X (Proc.devRef .tc main_arg1))) := by
  dsimp only [entry, hostOps0_4, hostOps0_3, hostOps0_2, hostOps0_1, hostOps0]
  after_results_simp
  simp only [ofBuf_toBuf, ofBuf_cst_2, ofBuf_v3, toBuf_v7]
  rfl

/-- The first layer's bias as a row. -/
theorem entry_v27 : entry X (Proc.devRef .tc main_v27)
    = shapeCast S1x256 (X (Proc.devRef .tc main_arg5) : FArr S256) shapeCasts_S256_S1x256 := by
  dsimp only [entry, hostOps0_4, hostOps0_3, hostOps0_2, hostOps0_1, hostOps0]
  after_results_simp
  rfl

end Before

/-! ## The arguments are untouched by the stretches before the regions -/

section BeforeArgs

variable (X : Valuation τ sig (Elt Ideal))

theorem entry_arg1 : entry X (Proc.devRef .tc main_arg1) = X (Proc.devRef .tc main_arg1) := by
  dsimp only [entry, hostOps0_4, hostOps0_3, hostOps0_2, hostOps0_1, hostOps0]
  after_results_simp
theorem entry_arg2 : entry X (Proc.devRef .tc main_arg2) = X (Proc.devRef .tc main_arg2) := by
  dsimp only [entry, hostOps0_4, hostOps0_3, hostOps0_2, hostOps0_1, hostOps0]
  after_results_simp
theorem entry_arg3 : entry X (Proc.devRef .tc main_arg3) = X (Proc.devRef .tc main_arg3) := by
  dsimp only [entry, hostOps0_4, hostOps0_3, hostOps0_2, hostOps0_1, hostOps0]
  after_results_simp
theorem entry_arg4 : entry X (Proc.devRef .tc main_arg4) = X (Proc.devRef .tc main_arg4) := by
  dsimp only [entry, hostOps0_4, hostOps0_3, hostOps0_2, hostOps0_1, hostOps0]
  after_results_simp
theorem entry_arg6 : entry X (Proc.devRef .tc main_arg6) = X (Proc.devRef .tc main_arg6) := by
  dsimp only [entry, hostOps0_4, hostOps0_3, hostOps0_2, hostOps0_1, hostOps0]
  after_results_simp
theorem entry_arg7 : entry X (Proc.devRef .tc main_arg7) = X (Proc.devRef .tc main_arg7) := by
  dsimp only [entry, hostOps0_4, hostOps0_3, hostOps0_2, hostOps0_1, hostOps0]
  after_results_simp

/-- The stretches after the regions, read at the result buffer: the pooling of region 1's output. -/
theorem tail_v52 :
    StableHlo.after (hostOps2_2 (F := Ideal)) (StableHlo.after hostOps2_1 (StableHlo.after hostOps2 X)) (Proc.devRef .tc main_v52)
      = pool (X (Proc.devRef .tc main_v29)) (X (Proc.devRef .tc main_arg1)) (X (Proc.devRef .tc main_arg2))
          (X (Proc.devRef .tc main_v14)) (X (Proc.devRef .tc main_arg7)) (X (Proc.devRef .tc main_arg3)) := by
  dsimp only [hostOps2_2, hostOps2_1, hostOps2]
  after_results_simp
  simp only [ofBuf_toBuf, ofBuf_cst_14, ofBuf_v50, toBuf_v51]
  rfl

end BeforeArgs

/-! ## The fold through @main, boundary by boundary -/

section Fold

variable (m : (ℓ : Loc nD τ sig) → Buf (Elt Ideal) ℓ) (ρ : Dev nD → PrngReg) (c : Dev nD)

/-- Region 0's output array at its exit: the first layer of what the region found in its four input arrays. -/
theorem exit0_v28 : W6 m ρ c (Proc.devRef .tc main_v28)
    = Cert.Gcn.hidden (V5 m ρ c main_v26) (V5 m ρ c main_v14) (V5 m ρ c main_arg4) (V5 m ρ c main_v27) :=
  (W6_arr m ρ c 4).trans (hidden_value (V5 m ρ) c)

/-- The destination normalisation, which region 0 only reads, is unchanged at its exit. -/
theorem exit0_v14 : W6 m ρ c (Proc.devRef .tc main_v14) = W5 m ρ c (Proc.devRef .tc main_v14) :=
  (W6_arr m ρ c 1).trans (((dat0 (V5 m ρ) c).arrAt_in 1 rfl _).trans (A_eq0 (V5 m ρ) c 1))

/-- Region 1's output array at its exit: the second layer's product of what the region found in its three input arrays. -/
theorem exit1_v29 : W7 m ρ c (Proc.devRef .tc main_v29)
    = Cert.Gcn.readout (V6 m ρ c main_v28) (V6 m ρ c main_v13) (V6 m ρ c main_arg6) :=
  (W7_arr m ρ c 3).trans (readout_value (V6 m ρ) c)

/-- The kernel program's result buffer after the run holds `result` of the launch contents of the eight arguments. -/
theorem result_eq : W10 m ρ c (Proc.devRef .tc main_v52)
    = result (m ((c.tc : Thread nD τ).loc main_arg0)) (m ((c.tc : Thread nD τ).loc main_arg1))
        (m ((c.tc : Thread nD τ).loc main_arg2)) (m ((c.tc : Thread nD τ).loc main_arg3))
        (m ((c.tc : Thread nD τ).loc main_arg4)) (m ((c.tc : Thread nD τ).loc main_arg5))
        (m ((c.tc : Thread nD τ).loc main_arg6)) (m ((c.tc : Thread nD τ).loc main_arg7)) := by
  have e5 : W5 m ρ c = entry (W0 m ρ c) := rfl
  -- the tail, from region 1's exit contents
  refine (tail_v52 (W7 m ρ c)).trans ?_
  -- what the tail reads there, walked back to the launch
  have h29 := exit1_v29 m ρ c
  have h28 : V6 m ρ c main_v28 = _ := exit0_v28 m ρ c
  have h13 : V6 m ρ c main_v13 = col (degNorm (m ((c.tc : Thread nD τ).loc main_arg1))) :=
    (W6_of_ne m ρ c main_v13 (by decide)).trans ((congrFun e5 _).trans (entry_v13 (W0 m ρ c)))
  have ha6 : V6 m ρ c main_arg6 = m ((c.tc : Thread nD τ).loc main_arg6) :=
    (W6_of_ne m ρ c main_arg6 (by decide)).trans ((congrFun e5 _).trans (entry_arg6 (W0 m ρ c)))
  have h26 : V5 m ρ c main_v26 = aggFeatures (m ((c.tc : Thread nD τ).loc main_arg0)) (m ((c.tc : Thread nD τ).loc main_arg1)) (m ((c.tc : Thread nD τ).loc main_arg2)) :=
    (congrFun e5 _).trans (entry_v26 (W0 m ρ c))
  have h14 : V5 m ρ c main_v14 = col (degNorm (m ((c.tc : Thread nD τ).loc main_arg2))) :=
    (congrFun e5 _).trans (entry_v14 (W0 m ρ c))
  have ha4 : V5 m ρ c main_arg4 = m ((c.tc : Thread nD τ).loc main_arg4) :=
    (congrFun e5 _).trans (entry_arg4 (W0 m ρ c))
  have h27 : V5 m ρ c main_v27 = shapeCast S1x256 (m ((c.tc : Thread nD τ).loc main_arg5) : FArr S256) shapeCasts_S256_S1x256 :=
    (congrFun e5 _).trans (entry_v27 (W0 m ρ c))
  have t14 : W7 m ρ c (Proc.devRef .tc main_v14) = col (degNorm (m ((c.tc : Thread nD τ).loc main_arg2))) :=
    (W7_of_ne m ρ c main_v14 (by decide)).trans ((exit0_v14 m ρ c).trans h14)
  have t1 : W7 m ρ c (Proc.devRef .tc main_arg1) = m ((c.tc : Thread nD τ).loc main_arg1) :=
    (W7_of_ne m ρ c main_arg1 (by decide)).trans ((W6_of_ne m ρ c main_arg1 (by decide)).trans ((congrFun e5 _).trans (entry_arg1 (W0 m ρ c))))
  have t2 : W7 m ρ c (Proc.devRef .tc main_arg2) = m ((c.tc : Thread nD τ).loc main_arg2) :=
    (W7_of_ne m ρ c main_arg2 (by decide)).trans ((W6_of_ne m ρ c main_arg2 (by decide)).trans ((congrFun e5 _).trans (entry_arg2 (W0 m ρ c))))
  have t3 : W7 m ρ c (Proc.devRef .tc main_arg3) = m ((c.tc : Thread nD τ).loc main_arg3) :=
    (W7_of_ne m ρ c main_arg3 (by decide)).trans ((W6_of_ne m ρ c main_arg3 (by decide)).trans ((congrFun e5 _).trans (entry_arg3 (W0 m ρ c))))
  have t7 : W7 m ρ c (Proc.devRef .tc main_arg7) = m ((c.tc : Thread nD τ).loc main_arg7) :=
    (W7_of_ne m ρ c main_arg7 (by decide)).trans ((W6_of_ne m ρ c main_arg7 (by decide)).trans ((congrFun e5 _).trans (entry_arg7 (W0 m ρ c))))
  rw [h29, h28, h13, ha6, h26, h14, ha4, h27, t14, t1, t2, t3, t7]
  rfl

end Fold

end Cert.Gcn.Kernel

end
-- ==== Proof.RefLayers.lean ====
/-
  The two dense layers as the reference spells them on whole arrays — a scaling by a broadcast column, a `dot_general`
  over the feature axis, for the first layer a broadcast bias row and a clamp at zero — are `Cert.Gcn.hidden` and
  `Cert.Gcn.readout`, index by index. Also: a vector reshaped to one row is that vector broadcast along the row.
-/
import proofs.«158170_j85306640433226_1_alg».proof.Proof.Gen.ReferenceIdeal
import proofs.«158170_j85306640433226_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

open Idealize.ShloMosaic Idealize.ShloMosaic.TcCoe Idealize.SL.Sem Idealize.ShloMosaic.ValueIdx

namespace Cert.Gcn.Ref

open Cert.ReferenceIdeal Cert.ReferenceIdeal.Gen

/-! ## The first contraction: rows of a 50000×128 array against columns of a 128×256 array -/

/-- Left operand, row axis: the output's row. -/
theorem hid_lhs_0 (i : S50000x256.Idx) (q : dot_S50000x128_S128x256_S50000x256_1_0_0_1_n_n.contr.Idx) :
    (dot_S50000x128_S128x256_S50000x256_1_0_0_1_n_n.lhsIdx i q 0).val = (i 0).val := by
  unfold DotDims.lhsIdx
  rw [dif_neg (show ¬(0 : Fin S50000x128.rank) ∈ dot_S50000x128_S128x256_S50000x256_1_0_0_1_n_n.lhsBatch by decide), dif_pos (show (0 : Fin S50000x128.rank) ∈ dot_S50000x128_S128x256_S50000x256_1_0_0_1_n_n.lhsNonContracting by decide)]
  rfl
/-- Left operand, feature axis: the contraction index. -/
theorem hid_lhs_1 (i : S50000x256.Idx) (q : dot_S50000x128_S128x256_S50000x256_1_0_0_1_n_n.contr.Idx) :
    (dot_S50000x128_S128x256_S50000x256_1_0_0_1_n_n.lhsIdx i q 1).val = (q ⟨0, by decide⟩).val :=
  dot_S50000x128_S128x256_S50000x256_1_0_0_1_n_n.lhsIdx_val_of_single rfl i q
/-- Right operand, feature axis: the contraction index. -/
theorem hid_rhs_0 (i : S50000x256.Idx) (q : dot_S50000x128_S128x256_S50000x256_1_0_0_1_n_n.contr.Idx) :
    (dot_S50000x128_S128x256_S50000x256_1_0_0_1_n_n.rhsIdx i q 0).val = (q ⟨0, by decide⟩).val :=
  dot_S50000x128_S128x256_S50000x256_1_0_0_1_n_n.rhsIdx_val_of_single rfl i q
/-- Right operand, column axis: the output's column. -/
theorem hid_rhs_1 (i : S50000x256.Idx) (q : dot_S50000x128_S128x256_S50000x256_1_0_0_1_n_n.contr.Idx) :
    (dot_S50000x128_S128x256_S50000x256_1_0_0_1_n_n.rhsIdx i q 1).val = (i 1).val := by
  unfold DotDims.rhsIdx
  rw [dif_neg (show ¬(1 : Fin S128x256.rank) ∈ dot_S50000x128_S128x256_S50000x256_1_0_0_1_n_n.rhsBatch by decide), dif_pos (show (1 : Fin S128x256.rank) ∈ dot_S50000x128_S128x256_S50000x256_1_0_0_1_n_n.rhsNonContracting by decide)]
  rfl

/-- The first contraction at row `p`, column `q` is the sum over the 128 features of row `p` times column `q`. -/
theorem hid_dot_apply (y : FVec Ideal S50000x128 .f32) (w : FVec Ideal S128x256 .f32) (p : Fin 50000) (q : Fin 256) :
    Host.dotGeneral (F := Ideal) dot_S50000x128_S128x256_S50000x256_1_0_0_1_n_n none y w (ix2 p q) = ∑ k : Fin 128, y (ix2 p k) * w (ix2 k q) := by
  simp only [Host.dotGeneral]
  rw [Ideal.dotGeneral_apply, ← Equiv.sum_comp (ValueIdx.contrEquiv1 dot_S50000x128_S128x256_S50000x256_1_0_0_1_n_n 128 rfl rfl).symm]
  refine Finset.sum_congr rfl fun k _ => ?_
  have hk := ValueIdx.contrEquiv1_symm_val dot_S50000x128_S128x256_S50000x256_1_0_0_1_n_n 128 rfl rfl k
  have el : dot_S50000x128_S128x256_S50000x256_1_0_0_1_n_n.lhsIdx (ix2 p q) ((ValueIdx.contrEquiv1 dot_S50000x128_S128x256_S50000x256_1_0_0_1_n_n 128 rfl rfl).symm k) = ix2 p k := funext fun a => Fin.ext (by
    match a with
    | ⟨0, _⟩ => exact hid_lhs_0 _ _
    | ⟨1, _⟩ => exact (hid_lhs_1 _ _).trans hk)
  have er : dot_S50000x128_S128x256_S50000x256_1_0_0_1_n_n.rhsIdx (ix2 p q) ((ValueIdx.contrEquiv1 dot_S50000x128_S128x256_S50000x256_1_0_0_1_n_n 128 rfl rfl).symm k) = ix2 k q := funext fun a => Fin.ext (by
    match a with
    | ⟨0, _⟩ => exact (hid_rhs_0 _ _).trans hk
    | ⟨1, _⟩ => exact hid_rhs_1 _ _)
  rw [el, er]

/-! ## The second contraction: rows of a 50000×256 array against the one column of a 256×1 array -/

/-- Left operand, row axis: the output's row. -/
theorem out_lhs_0 (i : S50000x1.Idx) (q : dot_S50000x256_S256x1_S50000x1_1_0_0_1_n_n.contr.Idx) :
    (dot_S50000x256_S256x1_S50000x1_1_0_0_1_n_n.lhsIdx i q 0).val = (i 0).val := by
  unfold DotDims.lhsIdx
  rw [dif_neg (show ¬(0 : Fin S50000x256.rank) ∈ dot_S50000x256_S256x1_S50000x1_1_0_0_1_n_n.lhsBatch by decide), dif_pos (show (0 : Fin S50000x256.rank) ∈ dot_S50000x256_S256x1_S50000x1_1_0_0_1_n_n.lhsNonContracting by decide)]
  rfl
/-- Left operand, feature axis: the contraction index. -/
theorem out_lhs_1 (i : S50000x1.Idx) (q : dot_S50000x256_S256x1_S50000x1_1_0_0_1_n_n.contr.Idx) :
    (dot_S50000x256_S256x1_S50000x1_1_0_0_1_n_n.lhsIdx i q 1).val = (q ⟨0, by decide⟩).val :=
  dot_S50000x256_S256x1_S50000x1_1_0_0_1_n_n.lhsIdx_val_of_single rfl i q
/-- Right operand, feature axis: the contraction index. -/
theorem out_rhs_0 (i : S50000x1.Idx) (q : dot_S50000x256_S256x1_S50000x1_1_0_0_1_n_n.contr.Idx) :
    (dot_S50000x256_S256x1_S50000x1_1_0_0_1_n_n.rhsIdx i q 0).val = (q ⟨0, by decide⟩).val :=
  dot_S50000x256_S256x1_S50000x1_1_0_0_1_n_n.rhsIdx_val_of_single rfl i q
/-- Right operand, column axis: the output's column. -/
theorem out_rhs_1 (i : S50000x1.Idx) (q : dot_S50000x256_S256x1_S50000x1_1_0_0_1_n_n.contr.Idx) :
    (dot_S50000x256_S256x1_S50000x1_1_0_0_1_n_n.rhsIdx i q 1).val = (i 1).val := by
  unfold DotDims.rhsIdx
  rw [dif_neg (show ¬(1 : Fin S256x1.rank) ∈ dot_S50000x256_S256x1_S50000x1_1_0_0_1_n_n.rhsBatch by decide), dif_pos (show (1 : Fin S256x1.rank) ∈ dot_S50000x256_S256x1_S50000x1_1_0_0_1_n_n.rhsNonContracting by decide)]
  rfl

/-- The second contraction at row `p`, column `q` is the sum over the 256 features of row `p` times column `q`. -/
theorem out_dot_apply (y : FVec Ideal S50000x256 .f32) (w : FVec Ideal S256x1 .f32) (p : Fin 50000) (q : Fin 1) :
    Host.dotGeneral (F := Ideal) dot_S50000x256_S256x1_S50000x1_1_0_0_1_n_n none y w (ix2 p q) = ∑ k : Fin 256, y (ix2 p k) * w (ix2 k q) := by
  simp only [Host.dotGeneral]
  rw [Ideal.dotGeneral_apply, ← Equiv.sum_comp (ValueIdx.contrEquiv1 dot_S50000x256_S256x1_S50000x1_1_0_0_1_n_n 256 rfl rfl).symm]
  refine Finset.sum_congr rfl fun k _ => ?_
  have hk := ValueIdx.contrEquiv1_symm_val dot_S50000x256_S256x1_S50000x1_1_0_0_1_n_n 256 rfl rfl k
  have el : dot_S50000x256_S256x1_S50000x1_1_0_0_1_n_n.lhsIdx (ix2 p q) ((ValueIdx.contrEquiv1 dot_S50000x256_S256x1_S50000x1_1_0_0_1_n_n 256 rfl rfl).symm k) = ix2 p k := funext fun a => Fin.ext (by
    match a with
    | ⟨0, _⟩ => exact out_lhs_0 _ _
    | ⟨1, _⟩ => exact (out_lhs_1 _ _).trans hk)
  have er : dot_S50000x256_S256x1_S50000x1_1_0_0_1_n_n.rhsIdx (ix2 p q) ((ValueIdx.contrEquiv1 dot_S50000x256_S256x1_S50000x1_1_0_0_1_n_n 256 rfl rfl).symm k) = ix2 k q := funext fun a => Fin.ext (by
    match a with
    | ⟨0, _⟩ => exact (out_rhs_0 _ _).trans hk
    | ⟨1, _⟩ => exact out_rhs_1 _ _)
  rw [el, er]

/-! ## The broadcasts, read at an index -/

/-- A column broadcast along 128 columns reads the column's entry of that row. -/
theorem col_to_128_apply (nd : FVec Ideal S50000x1 .f32) (p : Fin 50000) (k : Fin 128) :
    broadcastInDim S50000x128 ![0, 1] bcast_S50000x1_S50000x128_0_1 nd (ix2 p k) = nd (ix2 p 0) :=
  broadcastInDim_apply _ bcast_S50000x1_S50000x128_0_1 nd (ix2 p k) (ix2 p 0) (fun a => match a with
    | ⟨0, _⟩ => by show p.val = if (50000 : Nat) = 1 then 0 else p.val; rw [if_neg (by decide)]
    | ⟨1, _⟩ => by show 0 = if (1 : Nat) = 1 then 0 else k.val; rw [if_pos rfl])

/-- A column broadcast along 256 columns reads the column's entry of that row. -/
theorem col_to_256_apply (ns : FVec Ideal S50000x1 .f32) (p : Fin 50000) (k : Fin 256) :
    broadcastInDim S50000x256 ![0, 1] bcast_S50000x1_S50000x256_0_1 ns (ix2 p k) = ns (ix2 p 0) :=
  broadcastInDim_apply _ bcast_S50000x1_S50000x256_0_1 ns (ix2 p k) (ix2 p 0) (fun a => match a with
    | ⟨0, _⟩ => by show p.val = if (50000 : Nat) = 1 then 0 else p.val; rw [if_neg (by decide)]
    | ⟨1, _⟩ => by show 0 = if (1 : Nat) = 1 then 0 else k.val; rw [if_pos rfl])

/-- A row broadcast along 50000 rows reads the row's entry of that column. -/
theorem row_to_50000_apply (r : FVec Ideal S1x256 .f32) (p : Fin 50000) (q : Fin 256) :
    broadcastInDim S50000x256 ![0, 1] bcast_S1x256_S50000x256_0_1 r (ix2 p q) = r (ix2 0 q) :=
  broadcastInDim_apply _ bcast_S1x256_S50000x256_0_1 r (ix2 p q) (ix2 0 q) (fun a => match a with
    | ⟨0, _⟩ => by show 0 = if (1 : Nat) = 1 then 0 else p.val; rw [if_pos rfl]
    | ⟨1, _⟩ => by show q.val = if (256 : Nat) = 1 then 0 else q.val; rw [if_neg (by decide)])

/-- A scalar broadcast to a 50000×256 array reads the scalar. -/
theorem scalar_to_50000x256_apply (c : FVec Ideal S_ .f32) (i : S50000x256.Idx) :
    broadcastInDim S50000x256 ![] bcast_S_S50000x256 c i = c ix0 :=
  broadcastInDim_apply _ bcast_S_S50000x256 c i ix0 (fun a => a.elim0)

/-- The reference's first layer on whole arrays is `hidden`. -/
theorem hidden_ref (a : FVec Ideal S50000x128 .f32) (nd : FVec Ideal S50000x1 .f32) (w : FVec Ideal S128x256 .f32)
    (b : FVec Ideal S256 .f32) :
    maximumf
      (addf
        (Host.dotGeneral dot_S50000x128_S128x256_S50000x256_1_0_0_1_n_n none
          (mulf a (broadcastInDim S50000x128 ![0, 1] bcast_S50000x1_S50000x128_0_1 nd)) w)
        (broadcastInDim S50000x256 ![0, 1] bcast_S1x256_S50000x256_0_1 (broadcastInDim S1x256 ![1] bcast_S256_S1x256_1 b)))
      (broadcastInDim S50000x256 ![] bcast_S_S50000x256 (constant (F := Ideal) S_ .f32 0x00000000#32))
    = Cert.Gcn.hidden a nd w (broadcastInDim S1x256 ![1] bcast_S256_S1x256_1 b) := by
  funext i
  obtain ⟨p, q, rfl⟩ : ∃ (p : Fin 50000) (q : Fin 256), i = ix2 p q := ⟨i 0, i 1, eq_ix2 i⟩
  unfold Cert.Gcn.hidden
  rw [maximumf_apply, addf_apply, hid_dot_apply, row_to_50000_apply, scalar_to_50000x256_apply, constant_apply]
  have e : ∀ k : Fin 128, mulf a (broadcastInDim S50000x128 ![0, 1] bcast_S50000x1_S50000x128_0_1 nd) (ix2 p k)
      = a (ix2 p k) * nd (ix2 p 0) := fun k => by rw [mulf_apply, col_to_128_apply]
  simp only [e]

/-- The reference's second layer product on whole arrays is `readout`. -/
theorem readout_ref (h : FVec Ideal S50000x256 .f32) (ns : FVec Ideal S50000x1 .f32) (w : FVec Ideal S256x1 .f32) :
    Host.dotGeneral dot_S50000x256_S256x1_S50000x1_1_0_0_1_n_n none
      (mulf h (broadcastInDim S50000x256 ![0, 1] bcast_S50000x1_S50000x256_0_1 ns)) w
    = Cert.Gcn.readout h ns w := by
  funext i
  obtain ⟨p, q, rfl⟩ : ∃ (p : Fin 50000) (q : Fin 1), i = ix2 p q := ⟨i 0, i 1, eq_ix2 i⟩
  unfold Cert.Gcn.readout
  rw [out_dot_apply]
  have e : ∀ k : Fin 256, mulf h (broadcastInDim S50000x256 ![0, 1] bcast_S50000x1_S50000x256_0_1 ns) (ix2 p k)
      = h (ix2 p k) * ns (ix2 p 0) := fun k => by rw [mulf_apply, col_to_256_apply]
  simp only [e]

/-- A 256-vector reshaped to a 1×256 row is the vector broadcast along axis 1 of that row. -/
theorem reshape_row (b : FVec Ideal S256 .f32) (h : S256.ShapeCasts S1x256)
    (h' : S256.BroadcastsInDim S1x256 (![1] : Fin 1 → Fin S1x256.rank)) :
    shapeCast S1x256 b h = broadcastInDim S1x256 ![1] h' b := by
  funext i
  obtain ⟨p, q, rfl⟩ : ∃ (p : Fin 1) (q : Fin 256), i = ix2 p q := ⟨i 0, i 1, eq_ix2 i⟩
  rw [shapeCast_apply b h (ix2 p q) (ix1 q) (by
        rw [Shape.rowMajor_val_one, Shape.rowMajor_val_two]
        show q.val = p.val * 256 + q.val
        have := p.isLt
        omega),
      broadcastInDim_apply _ h' b (ix2 p q) (ix1 q) (fun a => match a with
        | ⟨0, _⟩ => by show q.val = if (256 : Nat) = 1 then 0 else q.val; rw [if_neg (by decide)])]

end Cert.Gcn.Ref

end
-- ==== Proof.RefResult.lean ====
/-
  The reference program's result is the SAME function of the eight arguments as the kernel program's
  (`Cert.Gcn.Kernel.result`): the reference's composed term has the same host operations on the same values around its two
  dense layers, and those are `Cert.Gcn.hidden` and `Cert.Gcn.readout` of the same operands.
-/
import proofs.«158170_j85306640433226_1_alg».proof.Proof.Gen.ReferenceIdeal.Run
import proofs.«158170_j85306640433226_1_alg».proof.Proof.RefLayers
import proofs.«158170_j85306640433226_1_alg».proof.Proof.ResultTerm

set_option maxRecDepth 16384

noncomputable section

open Idealize.ShloMosaic Idealize.ShloMosaic.TcCoe Idealize.SL.Sem

namespace Cert.Gcn.Ref

open Cert.ReferenceIdeal Cert.ReferenceIdeal.Gen

/-- The reference run's result term is the kernel program's result function of the reference's arguments. -/
theorem result_ref (m : (ℓ : Loc nD τ sig) → Buf (Elt Ideal) ℓ) (c : Dev nD) :
    Cert.ReferenceIdeal.Value.res_main_v61 (F := Ideal) m c
      = Cert.Gcn.Kernel.result
          (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5))
          (m ((c.tc : Thread nD τ).loc main_arg6)) (m ((c.tc : Thread nD τ).loc main_arg7)) := by
  unfold Cert.ReferenceIdeal.Value.res_main_v61
  -- the two dense layers inside the composed term are the specification's functions of their operands
  rw [hidden_ref, readout_ref]
  unfold Cert.Gcn.Kernel.result Cert.Gcn.Kernel.pool Cert.Gcn.Kernel.aggFeatures Cert.Gcn.Kernel.col Cert.Gcn.Kernel.degNorm
    Cert.Gcn.Kernel.startIdx
  -- the bias row: a reshape to one row on one side, a broadcast along that row on the other
  rw [reshape_row _ _ bcast_S256_S1x256_1]
  -- what is left is the same operations on the same values, spelt over two copies of the same shapes and records
  rfl

end Cert.Gcn.Ref

end
-- ==== Proof.lean ====
/-
  A two-layer graph convolution with mean pooling over each graph's nodes, computed two ways, gives one result over the
  extended reals.

  Both programs compute the degree normalisations `n(e) = max(1, deg e)^(-1/2)` of the source and destination index
  arrays, scale the features by the source normalisation, gather them along the edges and sum them into their
  destinations; apply the first dense layer `relu((agg · nd) W1 + b1)`; apply the second layer's product `(h · ns) W2`;
  gather and sum that along the edges again, scale by the destination normalisation, add `b2`; and divide each graph's
  sum by `max(1, its node count)`. The kernel program computes the two dense layers in 25 blocks of 2000 rows each, with
  its operands rounded to a shorter float format before the matrix unit — the identity over the extended reals — and
  accumulating into a zero block; the reference computes each as one whole-array contraction. Row `r` of either layer
  depends on row `r` of its operands only, so the blocks are restrictions of ONE whole-array function
  (`Cert.Gcn.hidden`, `Cert.Gcn.readout`), and each term of each sum is `(x · n) · w` on both sides: no sum is
  regrouped and no product distributed, so the equality needs no finiteness of the inputs. Every other operation (the
  scatter-adds, gathers, powers, clamps and the final quotient) is the same operation applied to the same values in both
  programs and is never opened.

  * `frame_Kernel`, `frame_KernelIdeal`: the generated frame of the two-region program, at either instance.
  * `frame_ReferenceIdeal`: the reference's generated run, its result dropped.
  * `preserves`: the idealization rewrote nothing.
  * `algebraic`: the kernel's run with its result buffer read back through the program to
    `Cert.Gcn.Kernel.result` of the arguments (Proof/KernelResult.lean over Proof/HiddenValue.lean and
    Proof/ReadoutValue.lean); the reference's run, whose result term is the same function of the same arguments
    (Proof/RefResult.lean over Proof/RefLayers.lean).
-/
import proofs.«158170_j85306640433226_1_alg».proof.Defs
import proofs.«158170_j85306640433226_1_alg».proof.Proof.Gen.Kernel
import proofs.«158170_j85306640433226_1_alg».proof.Proof.Gen.Kernel.Skeleton
import proofs.«158170_j85306640433226_1_alg».proof.Proof.Gen.Kernel.Launch
import proofs.«158170_j85306640433226_1_alg».proof.Proof.Gen.Kernel.Points
import proofs.«158170_j85306640433226_1_alg».proof.Proof.Gen.Kernel.Frame
import proofs.«158170_j85306640433226_1_alg».proof.Proof.Gen.KernelIdeal
import proofs.«158170_j85306640433226_1_alg».proof.Proof.Gen.KernelIdeal.Skeleton
import proofs.«158170_j85306640433226_1_alg».proof.Proof.Gen.KernelIdeal.Launch
import proofs.«158170_j85306640433226_1_alg».proof.Proof.Gen.KernelIdeal.Points
import proofs.«158170_j85306640433226_1_alg».proof.Proof.Gen.KernelIdeal.Frame
import proofs.«158170_j85306640433226_1_alg».proof.Proof.Gen.ReferenceIdeal
import proofs.«158170_j85306640433226_1_alg».proof.Proof.Gen.Pre_finite_inputs
import proofs.«158170_j85306640433226_1_alg».proof.Proof.Gen.ReferenceIdeal.Run
import proofs.«158170_j85306640433226_1_alg».proof.Proof.KernelRun
import proofs.«158170_j85306640433226_1_alg».proof.Proof.KernelResult
import proofs.«158170_j85306640433226_1_alg».proof.Proof.RefResult
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end with `Cert.Gcn.Kernel.result` of the (agreeing) arguments in their result buffers. -/
theorem algebraic : Cert.algebraic_KernelIdeal_ReferenceIdeal := by
  intro m ρ m' ρ' _ hagree
  refine ⟨fun c => Cert.Gcn.Kernel.result
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7)), ?_, ?_⟩
  · exact (θ_run Cert.KernelIdeal.defs _ _).mono
      (fun r h c => ⟨(h c).1.trans (Cert.Gcn.Kernel.result_eq m ρ c), (h c).2⟩)
      (Cert.KernelIdeal.Gen.run_result (F := Ideal) m ρ)
  · refine (θ_run Cert.ReferenceIdeal.defs _ _).mono (fun r h c => ⟨(h c).1.trans ?_, (h c).2⟩)
      (Cert.ReferenceIdeal.Value.run (F := Ideal) m' ρ')
    obtain ⟨h0, h1, h2, h3, h4, h5, h6, h7⟩ := hagree c
    rw [Cert.Gcn.Ref.result_ref m' c, h0, h1, h2, h3, h4, h5, h6, h7]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
